-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S256x1 : Shape := ⟨2, ![256, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .slt main_arg1 main_v16
  let main_v18 : IVec S4096x4096 1 := andi main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S4x2048x4096 .f32) (main_arg1 : IVec S4096x4096 32) (main_arg2 : FVec F S256x1 .f32) (main_arg3 : IVec S4096 32) (main_arg4 : FVec F S256x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .sge main_arg1 main_v14
  let main_c_5 : IVec S_ 32 := constantI S_ 32 256#32
  fn_part1 (F := F) main_arg1 main_v13 main_v15 main_c_5
-- ==== Kernel.lean ====
abbrev S4x2048x4096 : Shape := ⟨3, ![4, 2048, 4096]⟩
abbrev S4096x4096 : Shape := ⟨2, ![4096, 4096]⟩
abbrev S256x1 : Shape := ⟨2, ![256, 1]⟩
abbrev S4096 : Shape := ⟨1, ![4096]⟩
abbrev S256 : Shape := ⟨1, ![256]⟩
abbrev S128 : Shape := ⟨1, ![128]⟩
abbrev S1x128 : Shape := ⟨2, ![1, 128]⟩
abbrev S512x4096 : Shape := ⟨2, ![512, 4096]⟩
abbrev S512x128 : Shape := ⟨2, ![512, 128]⟩
abbrev S512x128x1 : Shape := ⟨3, ![512, 128, 1]⟩
abbrev S_ : Shape := ⟨0, ![]⟩
abbrev S4096x1 : Shape := ⟨2, ![4096, 1]⟩
abbrev S4096x2 : Shape := ⟨2, ![4096, 2]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 30
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S256x1, .f32⟩
  | .hbm, ⟨3, _⟩ => ⟨S4096, .i32⟩
  | .hbm, ⟨4, _⟩ => ⟨S256x1, .f32⟩
  | .hbm, ⟨5, _⟩ => ⟨S256, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S4096x4096, .bf16⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x1, .i32⟩
  | .hbm, ⟨23, _⟩ => ⟨S4096x2, .i32⟩
  | .hbm, ⟨24, _⟩ => ⟨S4096, .f32⟩
  | .hbm, ⟨25, _⟩ => ⟨S1x4096, .f32⟩
  | .hbm, ⟨26, _⟩ => ⟨S8192x4096, .f32⟩
  | .hbm, ⟨27, _⟩ => ⟨S8192x4096, .bf16⟩
  | .hbm, ⟨28, _⟩ => ⟨S8192x4096, .f32⟩
  | .hbm, ⟨29, _⟩ => ⟨S4x2048x4096, .f32⟩
  | .local _ .vmem, ⟨0, _⟩ => ⟨S512x4096, .i32⟩
  | .local _ .vmem, ⟨1, _⟩ => ⟨S512x4096, .i32⟩
  | .local _ .vmem, ⟨2, _⟩ => ⟨S1x128, .f32⟩
  | .local _ .vmem, ⟨3, _⟩ => ⟨S1x128, .f32⟩
  | .local _ .vmem, ⟨4, _⟩ => ⟨S512x4096, .bf16⟩
  | .local _ .vmem, ⟨5, _⟩ => ⟨S512x4096, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v9 : BitVec 32 := Scalar.muli arg5 c128_i32
  v9
def k0_off1 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c128_i32 : BitVec 32 := 128#32
  let v9 : BitVec 32 := Scalar.muli arg5 c128_i32
  let v10 : BitVec 32 := v9
  let v11 : Index := Scalar.indexCast v10
  ![0, v11.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S256x1_S256 : S256x1.ShapeCasts S256
  slices_S256_S128_0 : S256.Slices ![0] S128
  shapeCasts_S128_S1x128 : S128.ShapeCasts S1x128
  slices_S256_S128_128 : S256.Slices ![128] S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S512x128 : 0 < S512x128.numel
  shapeCasts_S512x128_S512x128x1 : S512x128.ShapeCasts S512x128x1
  shapeCasts_S512x128x1_S512x128 : S512x128x1.ShapeCasts S512x128
  bitsLt_bf16_f32 : FTy.bits .bf16 < FTy.bits .f32
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S1x4096 : S4096.ShapeCasts S1x4096
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x1_S4096x2_S4096_n_01_n_n_01_1_11_wf : GatherDims.WF S256x1 S4096x2 S4096 [] [0, 1] [] [0, 1] [] 1 ![1, 1]
  dot_S1024x1024_S1024x1024_S1024x1024_1_1_0_0_n_n_wf : DotDims.WF S1024x1024 S1024x1024 S1024x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x128.size a ≤ S512x4096.size a
  k0_off1_packedbf16 : ∀ k0_t1 : Fin k0_t1_loop.trips, (Rect.unit (s := S512x4096) (k0_off1 k0_t1) S512x128.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .i32 = 32 ∨ (Rect.block (s := S4096x4096) S512x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def gather_S256x1_S4096x2_S4096_n_01_n_n_01_1_11 : GatherDims S256x1 S4096x2 S4096 where
  offsetDims := []
  collapsedSliceDims := [0, 1]
  operandBatchingDims := []
  startIndicesBatchingDims := []
  startIndexMap := [0, 1]
  indexVectorDim := 1
  sliceSizes := ![1, 1]
  wf := gather_S256x1_S4096x2_S4096_n_01_n_n_01_1_11_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S256x1 : Shape := ⟨2, ![256, 1]⟩
abbrev S4096 : Shape := ⟨1, ![4096]⟩
abbrev S_ : Shape := ⟨0, ![]⟩
abbrev S4096x4096x1 : Shape := ⟨3, ![4096, 4096, 1]⟩
abbrev S4096x4096x2 : Shape := ⟨3, ![4096, 4096, 2]⟩
abbrev S4096x1 : Shape := ⟨2, ![4096, 1]⟩
abbrev S4096x2 : Shape := ⟨2, ![4096, 2]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S256x1, .f32⟩
  | .hbm, ⟨3, _⟩ => ⟨S4096, .i32⟩
  | .hbm, ⟨4, _⟩ => ⟨S256x1, .f32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096x1, .i32⟩
  | .hbm, ⟨16, _⟩ => ⟨S4096x4096x1, .i32⟩
  | .hbm, ⟨17, _⟩ => ⟨S4096x4096x2, .i32⟩
  | .hbm, ⟨18, _⟩ => ⟨S4096x4096, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1, .i32⟩
  | .hbm, ⟨31, _⟩ => ⟨S4096x2, .i32⟩
  | .hbm, ⟨32, _⟩ => ⟨S4096, .f32⟩
  | .hbm, ⟨33, _⟩ => ⟨S4x2048x4096, .f32⟩
  | .hbm, ⟨34, _⟩ => ⟨S1x1x4096, .f32⟩
  | .hbm, ⟨35, _⟩ => ⟨S4x2048x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x1_S4096x4096x2_S4096x4096_n_01_n_n_01_2_11_wf : GatherDims.WF S256x1 S4096x4096x2 S4096x4096 [] [0, 1] [] [0, 1] [] 2 ![1, 1]
  gather_S256x1_S4096x2_S4096_n_01_n_n_01_1_11_wf : GatherDims.WF S256x1 S4096x2 S4096 [] [0, 1] [] [0, 1] [] 1 ![1, 1]
  dot_S4x2048x4096_S4096x4096_S4x2048x4096_2_1_01_0_n_n_wf : DotDims.WF S4x2048x4096 S4096x4096 S4x2048x4096 [2] [1] [0, 1] [0] [] []

variable [Facts₀]

def gather_S256x1_S4096x4096x2_S4096x4096_n_01_n_n_01_2_11 : GatherDims S256x1 S4096x4096x2 S4096x4096 where
  offsetDims := []
  collapsedSliceDims := [0, 1]
  operandBatchingDims := []
  startIndicesBatchingDims := []
  startIndexMap := [0, 1]
  indexVectorDim := 2
  sliceSizes := ![1, 1]
  wf := gather_S256x1_S4096x4096x2_S4096x4096_n_01_n_n_01_2_11_wf
def gather_S256x1_S4096x2_S4096_n_01_n_n_01_1_11 : GatherDims S256x1 S4096x2 S4096 where
  offsetDims := []
  collapsedSliceDims := [0, 1]
  operandBatchingDims := []
  startIndicesBatchingDims := []
  startIndexMap := [0, 1]
  indexVectorDim := 1
  sliceSizes := ![1, 1]
  wf := gather_S256x1_S4096x2_S4096_n_01_n_n_01_1_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Bits.LookupRun.lean ====
/-
  The codebook lookup's body, run once on whole staging memrefs.

  One grid point of the first kernel holds a [512, 4096] block of codebook indices, the two halves of the
  256-entry codebook as [1, 128] rows, and the [512, 4096] block of looked-up weights it writes. The body walks
  the 32 column chunks of 128 lanes; chunk k loads the indices' columns 128·k … 128·k + 127, looks each one up
  in the half its value selects, and stores the 512 × 128 results at the same columns of the output block. So after
  the loop the output buffer holds 32 pieces, one per chunk, and together they tile it. The pieces are what the
  symbolic run finds; the statement below is that run.
-/
import proofs.«402493_j55972013802094_2_alg».proof.Proof.Gen.Kernel.Launch
import proofs.«402493_j55972013802094_2_alg».proof.Proof.Gen.Kernel.Skeleton
import proofs.«402493_j55972013802094_2_alg».proof.Proof.Gen.Kernel.Loops
import proofs.«402493_j55972013802094_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The lookup body on whole memrefs — the index block at `xi`, the codebook halves at `lo` and `hi`, the output
    block at anything — runs to the continuation with the three inputs as they were and the output block
    overwritten by the pieces `L` of the 32 chunks (the later chunk first). -/
noncomputable def lookupRun (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) :
    { L : List (View.Piece (Elt F) S512x4096 .bf16) //
      ∀ (E : Set ℕ) (K : PUnit → sProp 𝕄),
        iprop(owns (c : Thread nD τ) arg1 fullShare xi ∗ owns (c : Thread nD τ) arg2 fullShare lo
            ∗ owns (c : Thread nD τ) arg3 fullShare hi ∗ (∃ d, owns (c : Thread nD τ) arg4 fullShare d)
            ∗ (iprop(owns (c : Thread nD τ) arg1 fullShare xi ∗ owns (c : Thread nD τ) arg2 fullShare lo
                ∗ owns (c : Thread nD τ) arg3 fullShare hi
                ∗ (∃ f, arg4.view.loc (c : Thread nD τ) ↦[arg4.view.set]{fullShare} arg4.view.writes (Elt F) f L)) -∗ K ⟨⟩))
          ⊢ wp frame (wpE (defs₀ (F := F)) Variants.none c none) E
              (cc0__dequant_kernel i arg1 harg1 arg2 harg2 arg3 harg3 arg4 harg4) K } := by
  refine ⟨?_, fun E K => ?run⟩
  case run =>
    simp only [cc0__dequant_kernel_eq_skeleton]; unfold cc0__dequant_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

end Cert.Kernel.Hand

end
-- ==== Proof.Bits.LookupData.lean ====
/-
  The codebook lookup's region: its proof data and body obligation, at the buffer contents `V` the region is
  entered with.

  The region walks 8 grid points, one per [512, 4096] row block of the index matrix. At every point the index
  window holds its block, the two codebook-half windows hold their one row (fetched at the first point, left in
  place after), and the output window's staging buffer holds, after the body, the 32 chunk stores read back as one
  block. Nothing is carried from one point to the next, so the region's invariant is the class's: the other scoped
  buffers and the generator register, untouched.
-/
import proofs.«402493_j55972013802094_2_alg».proof.Proof.Bits.LookupRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- One staging buffer of the output window, through which its contents are stated (the choice does not matter). -/
abbrev lookV : View sig .tc .vmem S512x4096 .bf16 := (Memref.whole cc0_stg3_0 : Memref sig .tc .vmem S512x4096 .bf16).view
/-- The memrefs the pipeline calls the body with at point `t`. -/
abbrev ms0_0 (t : Fin cfg0.N) : Memref sig .tc .vmem S512x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)

/-- The 32 chunk stores, each 512 × 128, tile the 512 × 4096 block, so they cover it. -/
theorem lookupCover (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) (y : S512x4096.Idx) :
    ∃ pc ∈ (lookupRun c i arg1 harg1 arg2 harg2 arg3 harg3 arg4 harg4 xi lo hi).1, y ∈ pc.1.set :=
  View.cover_of_tiledL (lookupRun c i arg1 harg1 arg2 harg2 arg3 harg3 arg4 harg4 xi lo hi).1 S512x128.size (by sl_kernel_rfl) y

/-- What the body leaves in the output block: its chunk stores read back. -/
def lookupOut (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) : Vec F S512x4096 .bf16 :=
  lookV.read (Elt F) (lookV.writes (Elt F) lookV.junk (lookupRun c i arg1 harg1 arg2 harg2 arg3 harg3 arg4 harg4 xi lo hi).1)

/-- The output block after the body at point `t`. -/
def lookupAt (c : Dev nD) (t : Fin cfg0.N) : Vec F S512x4096 .bf16 :=
  lookupOut c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-! ## The proof data -/

/-- The region's proof data on core `c`: the arrays as the region finds them; after the body each input window at
    its block and the output window at `lookupAt`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lookupAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = lookupAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the three input memrefs hold their blocks, so the run applies; the invariant and the
    core's `owes` pass through unread; the output block's pieces cover it, so what it holds is `lookupAt`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold lookupAt
  unfold lookupOut
  iintro ⟨HΦ, Ho, ⟨%d0, H0⟩, ⟨%d1, H1⟩, ⟨%d2, H2⟩, ⟨%d3, H3⟩⟩
  iapply ((lookupRun c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (lookupCover c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.LinearShared.lean ====
/-
  The K-blocked linear layer's body: what its three kinds of grid point share.

  The second kernel runs on an 8 × 4 × 4 grid (row tile, column tile, K step). Its body keeps a [1024, 1024]
  accumulator in a scratch buffer across the four K steps of one (row tile, column tile): it clears the
  accumulator at K step 0, adds one [1024, 1024] × [1024, 1024]ᵀ product at every step, and at K step 3 adds
  the bias row and stores the output block. In the flat order of the grid the K step is the point's number
  mod 4, so a point is a first step (≡ 0), a last step (≡ 3) or a middle step. The output window is idle — not
  stored into and not written back — at every point but the last steps.
-/
import proofs.«402493_j55972013802094_2_alg».proof.Proof.Gen.Kernel.Launch
import proofs.«402493_j55972013802094_2_alg».proof.Proof.Gen.Kernel.Skeleton
import proofs.«402493_j55972013802094_2_alg».proof.Proof.Gen.Kernel.Loops
import proofs.«402493_j55972013802094_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The body's first branch (`pl.when(program_id(2) == 0)`): the K step is 0. -/
abbrev firstStep (i : grid1.Coords) : Prop :=
  (Scalar.cmpi .ne (Scalar.extui (Scalar.cmpi .eq (BitVec.ofNat 32 (i 2).val) 0#32)) 0#32) = 1#1
/-- It holds at the points ≡ 0 (mod 4). -/
theorem firstStep_iff : ∀ t : Fin cfg1.N, firstStep (grid1.coords t) ↔ t.val % 4 = 0 :=
  (by decide +kernel : ∀ t : Fin grid1.N, firstStep (grid1.coords t) ↔ t.val % 4 = 0)

/-- The body's second branch (`pl.when(program_id(2) == num_programs(2) - 1)`): the K step is 3. -/
abbrev lastStep (i : grid1.Coords) : Prop := k1_cond2 i = 1#1
/-- It holds at the points ≡ 3 (mod 4). -/
theorem lastStep_iff : ∀ t : Fin cfg1.N, lastStep (grid1.coords t) ↔ t.val % 4 = 3 :=
  (by decide +kernel : ∀ t : Fin grid1.N, lastStep (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last steps the output window is idle, -/
theorem idle1_3 : ∀ t : Fin cfg1.N, ¬lastStep (grid1.coords t) → cfg1.idle 3 (grid1.coords t) = true := by decide +kernel
/-- and its block is not written back there; -/
theorem noFlush1_3 : ∀ t : Fin cfg1.N, ¬lastStep (grid1.coords t) → (cfg1.win 3).flush t = false := by decide +kernel
/-- at a last step it is live. -/
theorem live1_3 : ∀ t : Fin cfg1.N, lastStep (grid1.coords t) → cfg1.idle 3 (grid1.coords t) = false := by decide +kernel

/-! ## The memrefs the pipeline calls the body with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0
/-- The accumulator and one output staging buffer as views: contents are stated through them. -/
abbrev accV : View sig .tc .vmem S1024x1024 .f32 := accM.view
abbrev outV : View sig .tc .vmem S1024x1024 .f32 := (Memref.whole cc1_stg3_0 : Memref sig .tc .vmem S1024x1024 .f32).view

/-- The region's class invariant with the accumulator named: the other scoped buffers at anything, the
    accumulator owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) accM fullShare d)) ∗ (∃ r, prngReg c r)) := by
  unfold Pipeline.ΦA; rw [scopedRest1_eq]; simp only [accM, owns_whole]; try rfl

end Cert.Kernel.Hand

end
-- ==== Proof.Bits.LinearFirst.lean ====
/-
  A first K step of the linear layer's body, run once on whole memrefs: the accumulator is cleared, then the
  step's product is added to it; the output block is not touched.
-/
import proofs.«402493_j55972013802094_2_alg».proof.Proof.Bits.LinearShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first K step — the activation block at `xa`, the weight block at `wa`, the bias row at `ba`, the output
    block at `d6`, the accumulator at anything — the body runs to the continuation with the four window buffers as
    they were and the accumulator overwritten by the pieces `LS` (the later store first). -/
noncomputable def stepFirst (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : firstStep i) (hc2 : ¬lastStep i)
    (xa wa : Vec F S1024x1024 .bf16) (ba : Vec F S1x1024 .f32) :
    { LS : List (View.Piece (Elt F) S1024x1024 .f32) //
      ∀ (d6 : Vec F S1024x1024 .f32) (E : Set ℕ) (K : PUnit → sProp 𝕄),
        iprop(owns (c : Thread nD τ) arg3 fullShare xa ∗ owns (c : Thread nD τ) arg4 fullShare wa ∗ owns (c : Thread nD τ) arg5 fullShare ba ∗ owns (c : Thread nD τ) arg6 fullShare d6
            ∗ (∃ d, owns (c : Thread nD τ) arg7 fullShare d)
            ∗ (iprop(owns (c : Thread nD τ) arg3 fullShare xa ∗ owns (c : Thread nD τ) arg4 fullShare wa ∗ owns (c : Thread nD τ) arg5 fullShare ba ∗ owns (c : Thread nD τ) arg6 fullShare d6
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun d6 E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4
    obtain rfl := harg5.eq_unread hf5; obtain rfl := harg6.eq_unread hf6
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.Hand

end
-- ==== Proof.Bits.LinearMiddle.lean ====
/-
  A middle K step of the linear layer's body, run once on whole memrefs: the step's product is added to the
  accumulator the step before left; the output block is not touched.
-/
import proofs.«402493_j55972013802094_2_alg».proof.Proof.Bits.LinearShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle K step — the window buffers as at a first step, the accumulator at `xs` — the body runs to the
    continuation with the four window buffers as they were and the accumulator overwritten by the pieces `LS`. -/
noncomputable def stepMiddle (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : ¬firstStep i) (hc2 : ¬lastStep i)
    (xa wa : Vec F S1024x1024 .bf16) (ba : Vec F S1x1024 .f32) (xs : Vec F S1024x1024 .f32) :
    { LS : List (View.Piece (Elt F) S1024x1024 .f32) //
      ∀ (d6 : Vec F S1024x1024 .f32) (E : Set ℕ) (K : PUnit → sProp 𝕄),
        iprop(owns (c : Thread nD τ) arg3 fullShare xa ∗ owns (c : Thread nD τ) arg4 fullShare wa ∗ owns (c : Thread nD τ) arg5 fullShare ba ∗ owns (c : Thread nD τ) arg6 fullShare d6
            ∗ owns (c : Thread nD τ) arg7 fullShare xs
            ∗ (iprop(owns (c : Thread nD τ) arg3 fullShare xa ∗ owns (c : Thread nD τ) arg4 fullShare wa ∗ owns (c : Thread nD τ) arg5 fullShare ba ∗ owns (c : Thread nD τ) arg6 fullShare d6
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun d6 E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4
    obtain rfl := harg5.eq_unread hf5; obtain rfl := harg6.eq_unread hf6; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.Hand

end
-- ==== Proof.Bits.LinearLast.lean ====
/-
  A last K step of the linear layer's body, run once on whole memrefs: the step's product is added to the
  accumulator, then the accumulator plus the bias row is stored as the output block.
-/
import proofs.«402493_j55972013802094_2_alg».proof.Proof.Bits.LinearShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last K step — the input window buffers at `xa`, `wa`, `ba`, the output block at anything, the accumulator
    at `xs` — the body runs to the continuation with the inputs as they were, the output block overwritten by the
    pieces `L6` and the accumulator by the pieces `LS`. -/
noncomputable def stepLast (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : ¬firstStep i) (hc2 : lastStep i)
    (xa wa : Vec F S1024x1024 .bf16) (ba : Vec F S1x1024 .f32) (xs : Vec F S1024x1024 .f32) :
    Σ' (L6 : List (View.Piece (Elt F) S1024x1024 .f32)), { LS : List (View.Piece (Elt F) S1024x1024 .f32) //
      ∀ (E : Set ℕ) (K : PUnit → sProp 𝕄),
        iprop(owns (c : Thread nD τ) arg3 fullShare xa ∗ owns (c : Thread nD τ) arg4 fullShare wa ∗ owns (c : Thread nD τ) arg5 fullShare ba ∗ (∃ d, owns (c : Thread nD τ) arg6 fullShare d)
            ∗ owns (c : Thread nD τ) arg7 fullShare xs
            ∗ (iprop(owns (c : Thread nD τ) arg3 fullShare xa ∗ owns (c : Thread nD τ) arg4 fullShare wa ∗ owns (c : Thread nD τ) arg5 fullShare ba
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%d6, %f6, -, H6⟩, ⟨%f7, %hf7, H7⟩, Hk⟩
    obtain rfl := harg3.eq_unread hf3; obtain rfl := harg4.eq_unread hf4
    obtain rfl := harg5.eq_unread hf5; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Kernel.Hand

end
-- ==== Proof.Bits.LinearData.lean ====
/-
  The K-blocked linear layer's region: what the accumulator and the output block hold point by point, the
  invariant that carries the accumulator from one grid point to the next, the proof data and the body obligation,
  at the buffer contents `V` the region is entered with.

  In the flat order of the 8 × 4 × 4 grid, point n is K step n mod 4 of output tile n / 4. The accumulator after
  point n is: at a first step the step's product added to the cleared accumulator; at any other step the step's
  product added to what point n − 1 left. The output block is stored at the last steps only (the accumulator plus
  the bias row) and its window is idle elsewhere.
-/
import proofs.«402493_j55972013802094_2_alg».proof.Proof.Bits.LinearFirst
import proofs.«402493_j55972013802094_2_alg».proof.Proof.Bits.LinearMiddle
import proofs.«402493_j55972013802094_2_alg».proof.Proof.Bits.LinearLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched at the first steps only: between them its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, per kind of point -/

/-- The accumulator after a first step: the run's two stores (the clear, then the sum) read back. -/
def accFirstAt (c : Dev nD) (t : Fin cfg1.N) (h0 : t.val % 4 = 0) : Vec F S1024x1024 .f32 :=
  accV.read (Elt F) (accV.writes (Elt F) accV.junk (stepFirst c (grid1.coords t) (ms1_0 t) (hs1_0 t) (ms1_1 t) (hs1_1 t) (ms1_2 t) (hs1_2 t) (ms1_3 t) (hs1_3 t) accM (Memref.isWhole_whole _)
    ((firstStep_iff t).mpr h0) (fun h => by have := (lastStep_iff t).mp h; omega) (iblk1 V c 0 t) (iblk1 V c 1 t) (iblk1 V c 2 t)).1)

/-- The accumulator after a middle step, over what the point before left (`xs`). -/
def accMiddleAt (c : Dev nD) (t : Fin cfg1.N) (h0 : ¬t.val % 4 = 0) (h3 : ¬t.val % 4 = 3) (xs : Vec F S1024x1024 .f32) : Vec F S1024x1024 .f32 :=
  accV.read (Elt F) (accV.writes (Elt F) accV.junk (stepMiddle c (grid1.coords t) (ms1_0 t) (hs1_0 t) (ms1_1 t) (hs1_1 t) (ms1_2 t) (hs1_2 t) (ms1_3 t) (hs1_3 t) accM (Memref.isWhole_whole _)
    (fun h => h0 ((firstStep_iff t).mp h)) (fun h => h3 ((lastStep_iff t).mp h)) (iblk1 V c 0 t) (iblk1 V c 1 t) (iblk1 V c 2 t) xs).1)

/-- The accumulator after a last step, over what the point before left. -/
def accLastAt (c : Dev nD) (t : Fin cfg1.N) (h0 : ¬t.val % 4 = 0) (h3 : t.val % 4 = 3) (xs : Vec F S1024x1024 .f32) : Vec F S1024x1024 .f32 :=
  accV.read (Elt F) (accV.writes (Elt F) accV.junk (stepLast c (grid1.coords t) (ms1_0 t) (hs1_0 t) (ms1_1 t) (hs1_1 t) (ms1_2 t) (hs1_2 t) (ms1_3 t) (hs1_3 t) accM (Memref.isWhole_whole _)
    (fun h => h0 ((firstStep_iff t).mp h)) ((lastStep_iff t).mpr h3) (iblk1 V c 0 t) (iblk1 V c 1 t) (iblk1 V c 2 t) xs).2.1)

/-- The output block a last step stores, over what the point before left in the accumulator. -/
def outLastAt (c : Dev nD) (t : Fin cfg1.N) (h0 : ¬t.val % 4 = 0) (h3 : t.val % 4 = 3) (xs : Vec F S1024x1024 .f32) : Vec F S1024x1024 .f32 :=
  outV.read (Elt F) (outV.writes (Elt F) outV.junk (stepLast c (grid1.coords t) (ms1_0 t) (hs1_0 t) (ms1_1 t) (hs1_1 t) (ms1_2 t) (hs1_2 t) (ms1_3 t) (hs1_3 t) accM (Memref.isWhole_whole _)
    (fun h => h0 ((firstStep_iff t).mp h)) ((lastStep_iff t).mpr h3) (iblk1 V c 0 t) (iblk1 V c 1 t) (iblk1 V c 2 t) xs).1)

/-- A first step's two stores into the accumulator cover it (each is the whole buffer). -/
theorem coverFirst (c : Dev nD) (t : Fin cfg1.N) (h0 : t.val % 4 = 0) (y : S1024x1024.Idx) :
    ∃ pc ∈ (stepFirst c (grid1.coords t) (ms1_0 t) (hs1_0 t) (ms1_1 t) (hs1_1 t) (ms1_2 t) (hs1_2 t) (ms1_3 t) (hs1_3 t) accM (Memref.isWhole_whole _)
      ((firstStep_iff t).mpr h0) (fun h => by have := (lastStep_iff t).mp h; omega) (iblk1 V c 0 t) (iblk1 V c 1 t) (iblk1 V c 2 t)).1, y ∈ pc.1.set :=
  View.cover_of_tiledL _ S1024x1024.size (by sl_kernel_rfl) y
theorem coverMiddle (c : Dev nD) (t : Fin cfg1.N) (h0 : ¬t.val % 4 = 0) (h3 : ¬t.val % 4 = 3) (xs : Vec F S1024x1024 .f32) (y : S1024x1024.Idx) :
    ∃ pc ∈ (stepMiddle c (grid1.coords t) (ms1_0 t) (hs1_0 t) (ms1_1 t) (hs1_1 t) (ms1_2 t) (hs1_2 t) (ms1_3 t) (hs1_3 t) accM (Memref.isWhole_whole _)
      (fun h => h0 ((firstStep_iff t).mp h)) (fun h => h3 ((lastStep_iff t).mp h)) (iblk1 V c 0 t) (iblk1 V c 1 t) (iblk1 V c 2 t) xs).1, y ∈ pc.1.set :=
  View.cover_of_tiledL _ S1024x1024.size (by sl_kernel_rfl) y
theorem coverLastAcc (c : Dev nD) (t : Fin cfg1.N) (h0 : ¬t.val % 4 = 0) (h3 : t.val % 4 = 3) (xs : Vec F S1024x1024 .f32) (y : S1024x1024.Idx) :
    ∃ pc ∈ (stepLast c (grid1.coords t) (ms1_0 t) (hs1_0 t) (ms1_1 t) (hs1_1 t) (ms1_2 t) (hs1_2 t) (ms1_3 t) (hs1_3 t) accM (Memref.isWhole_whole _)
      (fun h => h0 ((firstStep_iff t).mp h)) ((lastStep_iff t).mpr h3) (iblk1 V c 0 t) (iblk1 V c 1 t) (iblk1 V c 2 t) xs).2.1, y ∈ pc.1.set :=
  View.cover_of_tiledL _ S1024x1024.size (by sl_kernel_rfl) y
theorem coverLastOut (c : Dev nD) (t : Fin cfg1.N) (h0 : ¬t.val % 4 = 0) (h3 : t.val % 4 = 3) (xs : Vec F S1024x1024 .f32) (y : S1024x1024.Idx) :
    ∃ pc ∈ (stepLast c (grid1.coords t) (ms1_0 t) (hs1_0 t) (ms1_1 t) (hs1_1 t) (ms1_2 t) (hs1_2 t) (ms1_3 t) (hs1_3 t) accM (Memref.isWhole_whole _)
      (fun h => h0 ((firstStep_iff t).mp h)) ((lastStep_iff t).mpr h3) (iblk1 V c 0 t) (iblk1 V c 1 t) (iblk1 V c 2 t) xs).1, y ∈ pc.1.set :=
  View.cover_of_tiledL _ S1024x1024.size (by sl_kernel_rfl) y

/-! ## Point by point -/

/-- THE ACCUMULATION: what the accumulator holds after the body at position `n` of the grid's flat order. -/
def accAt (c : Dev nD) : (n : ℕ) → n < cfg1.N → Vec F S1024x1024 .f32
  | 0, hn => accFirstAt V c ⟨0, hn⟩ (Nat.zero_mod 4)
  | n + 1, hn =>
    if h0 : (n + 1) % 4 = 0 then accFirstAt V c ⟨n + 1, hn⟩ h0
    else if h3 : (n + 1) % 4 = 3 then accLastAt V c ⟨n + 1, hn⟩ h0 h3 (accAt c n (Nat.lt_of_succ_lt hn))
    else accMiddleAt V c ⟨n + 1, hn⟩ h0 h3 (accAt c n (Nat.lt_of_succ_lt hn))

theorem accAt_first (c : Dev nD) (t : Fin cfg1.N) (h0 : t.val % 4 = 0) :
    accAt V c t.val t.isLt = accFirstAt V c t h0 := by
  obtain ⟨n, hn⟩ := t
  cases n with
  | zero => exact rfl
  | succ n => exact (dif_pos h0).trans rfl

theorem accAt_middle (c : Dev nD) (t : Fin cfg1.N) (h0 : ¬t.val % 4 = 0) (h3 : ¬t.val % 4 = 3) :
    accAt V c t.val t.isLt = accMiddleAt V c t h0 h3 (accAt V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h3).trans rfl)

theorem accAt_last (c : Dev nD) (t : Fin cfg1.N) (h0 : ¬t.val % 4 = 0) (h3 : t.val % 4 = 3) :
    accAt V c t.val t.isLt = accLastAt V c t h0 h3 (accAt V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h3).trans rfl)

/-- The output block after the body at point `t`: at a last step what it stores; elsewhere the window is idle and
    this is a placeholder nothing consults. -/
def outAt (c : Dev nD) (t : Fin cfg1.N) : Vec F S1024x1024 .f32 :=
  if h3 : t.val % 4 = 3 then
    outLastAt V c t (by omega) h3 (accAt V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = outLastAt V c t h0 h3 (accAt V c (t.val - 1) (Nat.lt_of_le_of_lt (Nat.sub_le _ _) t.isLt)) := by
  unfold outAt; exact dif_pos h3

/-! ## The invariant that carries the accumulator -/

/-- The region's scoped buffers with the accumulator at `P`: the other pipeline's six staging buffers at anything,
    the accumulator as `P` says, the generator register at some state. -/
def accInv (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

theorem PhiA1_acc (c : Dev nD) : (Pipeline.ΦA spec1 c : sProp 𝕄) = accInv c iprop(∃ d, owns (c : Thread nD τ) accM fullShare d) := by
  unfold accInv; exact PhiA1_eq c

/-- Before position `n`: before the first point the class's invariant (the accumulator at anything); afterwards
    the accumulator at what the point before left. -/
def PhiS (c : Dev nD) : (n : ℕ) → n ≤ cfg1.N → sProp 𝕄
  | 0, _ => Pipeline.ΦA spec1 c
  | n + 1, hn => accInv c (owns (c : Thread nD τ) accM fullShare (accAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = accInv c (owns (c : Thread nD τ) accM fullShare (accAt V c n hn)) := rfl
theorem PhiS_pos (c : Dev nD) (n : ℕ) (h : n ≤ cfg1.N) (hz : n ≠ 0) :
    PhiS V c n h = accInv c (owns (c : Thread nD τ) accM fullShare (accAt V c (n - 1) (by omega))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]

set_option maxHeartbeats 4800000 in
/-- The body at any point. The input memrefs hold their blocks. By the point's number mod 4 it is a first, a last
    or a middle step, and that step's run applies: the invariant hands it the accumulator at what the point before
    left (at anything before the very first point, and at a first step the named contents are simply forgotten) and
    takes it back at this point's contents, the stores covering it; off the last steps the output block goes back as
    it came, at a last step its store covers it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 4 = 0
  · have h3 : ¬t.val % 4 = 3 := by omega
    rw [Dat.leavesExact_idle (dat1 V c) 3 t (idle1_3 t (fun h => h3 ((lastStep_iff t).mp h))) (noFlush1_3 t (fun h => h3 ((lastStep_iff t).mp h)))]
    rw [accAt_first V c t h0]
    unfold accFirstAt
    by_cases hz : t.val = 0
    · rw [PhiS_castSucc V c t, PhiS_zero V c _ _ hz, PhiA1_acc]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepFirst c (grid1.coords t) _ _ _ _ _ _ _ _ _ _ ((firstStep_iff t).mpr h0) (fun h => by have := (lastStep_iff t).mp h; omega) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverFirst V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepFirst c (grid1.coords t) _ _ _ _ _ _ _ _ _ _ ((firstStep_iff t).mpr h0) (fun h => by have := (lastStep_iff t).mp h; omega) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverFirst V c t h0)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [live1_3 t ((lastStep_iff t).mpr h3)], after1_3]
      rw [accAt_last V c t h0 h3, outAt_last V c t h0 h3]
      unfold accLastAt outLastAt
      rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepLast c (grid1.coords t) _ _ _ _ _ _ _ _ _ _ (fun h => h0 ((firstStep_iff t).mp h)) ((lastStep_iff t).mpr h3) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverLastAcc V c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut V c t h0 h3 _)
    · rw [Dat.leavesExact_idle (dat1 V c) 3 t (idle1_3 t (fun h => h3 ((lastStep_iff t).mp h))) (noFlush1_3 t (fun h => h3 ((lastStep_iff t).mp h)))]
      rw [accAt_middle V c t h0 h3]
      unfold accMiddleAt
      rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepMiddle c (grid1.coords t) _ _ _ _ _ _ _ _ _ _ (fun h => h0 ((firstStep_iff t).mp h)) (fun h => h3 ((lastStep_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverMiddle V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the accumulator's contents are forgotten. -/
theorem Phi1_last (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_acc]
  unfold accInv
  iintro ⟨⟨B1, B2, B3, B4, B5, B6, HS⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    iexists _; iexact HS
  iexact Hg

end Cert.Kernel.Hand

end
-- ==== Proof.Bits.Whole.lean ====
/-
  The whole program, launched: both kernel regions and the three stretches of host operations between them run to
  the end, and every buffer the program leaves behind is named.

  @main is five items: host operations that cut the codebook into its two 128-entry halves; the lookup region;
  host operations that gather the bias, flatten the activations to [8192, 4096] and narrow them; the linear-layer
  region; the reshape of its [8192, 4096] result to [4, 2048, 4096]. The buffer contents at the six boundaries are a
  fold from the launch memory: a host stretch applies its operations, a region replaces each of its windows' arrays
  by what its write-backs leave (an input array: itself) and touches nothing else. Each region is entered with all
  unscoped buffers held at the boundary's contents, takes its windows' arrays out of them, runs its pipeline under
  its body obligation, and puts the arrays back. The run's post says every unscoped buffer ends at the last
  boundary's contents; the argument arrays walk back through the fold to the launch memory.
-/
import proofs.«402493_j55972013802094_2_alg».proof.Proof.Bits.LookupData
import proofs.«402493_j55972013802094_2_alg».proof.Proof.Bits.LinearData
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev hostOps0_W : List (Ref sig .tc) := [main_v0, main_v1, main_v2, main_v3, main_v4]
abbrev hostOps1_W : List (Ref sig .tc) := [main_c, main_v6, main_v7, main_c_0, main_v8, main_v9, main_v10, main_c_1, main_v11, main_v12, main_v13, main_v14, main_v15, main_v16, main_v17, main_v18, main_v19]
abbrev hostOps2_W : List (Ref sig .tc) := [main_v21]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall, StableHlo.reshape_writes, Finset.singleton_subset_iff, List.mem_toFinset]; exact List.mem_map_of_mem (by decide)

/-! ## The buffer contents at each boundary -/

/-- Core `c`'s buffers at launch. -/
abbrev B0 : Dev nD → Valuation τ sig (Elt F) := fun c b => m (c, b)
/-- After the codebook is cut in halves (the lookup region's entry). -/
abbrev B1 : Dev nD → Valuation τ sig (Elt F) := fun c => StableHlo.after hostOps0 (B0 m c)
abbrev V1 : (c : Dev nD) → (b : Ref sig .tc) → Buf (Elt F) ((c : Thread nD τ).loc b) := fun c b => B1 m c b
/-- At the lookup region's exit: its arrays at what the pipeline leaves, every other buffer as entered. -/
def B2 (c : Dev nD) : Valuation τ sig (Elt F) :=
  Pipeline.withArrays spec0 c (B1 m c) fun w => (dat0 (V1 m) c).arrAt w cfg0.N
theorem B2_arr (c : Dev nD) (w : Fin cfg0.W) :
    B2 m c (Proc.devRef .tc (Pipeline.arrRef spec0 w)) = (dat0 (V1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev V2 : (c : Dev nD) → (b : Ref sig .tc) → Buf (Elt F) ((c : Thread nD τ).loc b) := fun c b => B2 m c b
theorem hF0 (c : Dev nD) (w : Fin cfg0.W) : (dat0 (V1 m) c).arrAt w cfg0.N = V2 m c (Pipeline.arrRef spec0 w) :=
  (B2_arr m c w).symm
theorem hrest0 (c : Dev nD) : ∀ b, b ∉ Finset.univ.image (Pipeline.arrRef spec0) → V2 m c b = V1 m c b :=
  fun b hb => B2_of_ne m c b fun w e => hb (Finset.mem_image.mpr ⟨w, Finset.mem_univ _, e⟩)

/-- After the bias gather and the activations' flattening (the linear-layer region's entry). -/
abbrev B3 : Dev nD → Valuation τ sig (Elt F) := fun c => StableHlo.after hostOps1 (B2 m c)
abbrev V3 : (c : Dev nD) → (b : Ref sig .tc) → Buf (Elt F) ((c : Thread nD τ).loc b) := fun c b => B3 m c b
/-- At the linear-layer region's exit. -/
def B4 (c : Dev nD) : Valuation τ sig (Elt F) :=
  Pipeline.withArrays spec1 c (B3 m c) fun w => (dat1 (V3 m) c).arrAt w cfg1.N
theorem B4_arr (c : Dev nD) (w : Fin cfg1.W) :
    B4 m c (Proc.devRef .tc (Pipeline.arrRef spec1 w)) = (dat1 (V3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev V4 : (c : Dev nD) → (b : Ref sig .tc) → Buf (Elt F) ((c : Thread nD τ).loc b) := fun c b => B4 m c b
theorem hF1 (c : Dev nD) (w : Fin cfg1.W) : (dat1 (V3 m) c).arrAt w cfg1.N = V4 m c (Pipeline.arrRef spec1 w) :=
  (B4_arr m c w).symm
theorem hrest1 (c : Dev nD) : ∀ b, b ∉ Finset.univ.image (Pipeline.arrRef spec1) → V4 m c b = V3 m c b :=
  fun b hb => B4_of_ne m c b fun w e => hb (Finset.mem_image.mpr ⟨w, Finset.mem_univ _, e⟩)

/-- After the result's reshape: the end. -/
abbrev B5 : Dev nD → Valuation τ sig (Elt F) := fun c => StableHlo.after hostOps2 (B4 m c)

/-! ### The argument arrays end as launched -/

/-- `main_arg0` reaches the end as launched: no host operation writes it and no region's output is it. -/
theorem B5_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps2 _ hostOps2_writes (by decide)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl

/-- `main_arg1` reaches the end as launched: no host operation writes it and no region's output is it. -/
theorem B5_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps2 _ hostOps2_writes (by decide)
    _ = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 0).trans (((dat0 (V1 m) c).arrAt_in 0 rfl _).trans (A_eq0 (V1 m) c 0))
    _ = B0 m c (Proc.devRef .tc main_arg1) := StableHlo.after_of_writes_sub hostOps0 _ hostOps0_writes (by decide)
    _ = m ((c : Thread nD τ).loc main_arg1) := rfl

/-- `main_arg2` reaches the end as launched: no host operation writes it and no region's output is it. -/
theorem B5_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps2 _ hostOps2_writes (by decide)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

/-- `main_arg3` reaches the end as launched: no host operation writes it and no region's output is it. -/
theorem B5_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps2 _ hostOps2_writes (by decide)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl

/-- `main_arg4` reaches the end as launched: no host operation writes it and no region's output is it. -/
theorem B5_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps2 _ hostOps2_writes (by decide)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl

/-! ## The proof data family and the thread state -/

/-- No pipeline prefetches a table. -/
abbrev admNone : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admNone p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def reg0 : Pipeline.RegionSeg (pcfgs (F := F)) admNone (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admNone (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admNone (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admNone (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admNone (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admNone (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_all m ρ)

/-- THE RESULT: the run also names what the result buffer ends with. -/
theorem run_result : θ_run defs (onTc (τ := τ) (main (F := F))) ⟨m, fun _ => 0, ρ⟩ (fun r => ∀ c : Dev nD,
      r.2.mem ((c.tc : Thread nD τ).loc main_v21) = B5 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v21 (by decide)),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_all m ρ)

end Cert.Kernel.Hand

end
-- ==== Proof.Ideal.LookupRun.lean ====
/-
  The codebook lookup's body, run once on whole staging memrefs.

  One grid point of the first kernel holds a [512, 4096] block of codebook indices, the two halves of the
  256-entry codebook as [1, 128] rows, and the [512, 4096] block of looked-up weights it writes. The body walks
  the 32 column chunks of 128 lanes; chunk k loads the indices' columns 128·k … 128·k + 127, looks each one up
  in the half its value selects, and stores the 512 × 128 results at the same columns of the output block. So after
  the loop the output buffer holds 32 pieces, one per chunk, and together they tile it. The pieces are what the
  symbolic run finds; the statement below is that run.
-/
import proofs.«402493_j55972013802094_2_alg».proof.Proof.Gen.KernelIdeal.Launch
import proofs.«402493_j55972013802094_2_alg».proof.Proof.Gen.KernelIdeal.Skeleton
import proofs.«402493_j55972013802094_2_alg».proof.Proof.Gen.KernelIdeal.Loops
import proofs.«402493_j55972013802094_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The lookup body on whole memrefs — the index block at `xi`, the codebook halves at `lo` and `hi`, the output
    block at anything — runs to the continuation with the three inputs as they were and the output block
    overwritten by the pieces `L` of the 32 chunks (the later chunk first). -/
noncomputable def lookupRun (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) :
    { L : List (View.Piece (Elt F) S512x4096 .bf16) //
      ∀ (E : Set ℕ) (K : PUnit → sProp 𝕄),
        iprop(owns (c : Thread nD τ) arg1 fullShare xi ∗ owns (c : Thread nD τ) arg2 fullShare lo
            ∗ owns (c : Thread nD τ) arg3 fullShare hi ∗ (∃ d, owns (c : Thread nD τ) arg4 fullShare d)
            ∗ (iprop(owns (c : Thread nD τ) arg1 fullShare xi ∗ owns (c : Thread nD τ) arg2 fullShare lo
                ∗ owns (c : Thread nD τ) arg3 fullShare hi
                ∗ (∃ f, arg4.view.loc (c : Thread nD τ) ↦[arg4.view.set]{fullShare} arg4.view.writes (Elt F) f L)) -∗ K ⟨⟩))
          ⊢ wp frame (wpE (defs₀ (F := F)) Variants.none c none) E
              (cc0__dequant_kernel i arg1 harg1 arg2 harg2 arg3 harg3 arg4 harg4) K } := by
  refine ⟨?_, fun E K => ?run⟩
  case run =>
    simp only [cc0__dequant_kernel_eq_skeleton]; unfold cc0__dequant_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

end Cert.KernelIdeal.Hand

end
-- ==== Proof.Ideal.LookupData.lean ====
/-
  The codebook lookup's region: its proof data and body obligation, at the buffer contents `V` the region is
  entered with.

  The region walks 8 grid points, one per [512, 4096] row block of the index matrix. At every point the index
  window holds its block, the two codebook-half windows hold their one row (fetched at the first point, left in
  place after), and the output window's staging buffer holds, after the body, the 32 chunk stores read back as one
  block. Nothing is carried from one point to the next, so the region's invariant is the class's: the other scoped
  buffers and the generator register, untouched.
-/
import proofs.«402493_j55972013802094_2_alg».proof.Proof.Ideal.LookupRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- One staging buffer of the output window, through which its contents are stated (the choice does not matter). -/
abbrev lookV : View sig .tc .vmem S512x4096 .bf16 := (Memref.whole cc0_stg3_0 : Memref sig .tc .vmem S512x4096 .bf16).view
/-- The memrefs the pipeline calls the body with at point `t`. -/
abbrev ms0_0 (t : Fin cfg0.N) : Memref sig .tc .vmem S512x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)

/-- The 32 chunk stores, each 512 × 128, tile the 512 × 4096 block, so they cover it. -/
theorem lookupCover (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) (y : S512x4096.Idx) :
    ∃ pc ∈ (lookupRun c i arg1 harg1 arg2 harg2 arg3 harg3 arg4 harg4 xi lo hi).1, y ∈ pc.1.set :=
  View.cover_of_tiledL (lookupRun c i arg1 harg1 arg2 harg2 arg3 harg3 arg4 harg4 xi lo hi).1 S512x128.size (by sl_kernel_rfl) y

/-- What the body leaves in the output block: its chunk stores read back. -/
def lookupOut (c : Dev nD) (i : grid0.Coords)
    (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec F S512x4096 .i32) (lo hi : Vec F S1x128 .f32) : Vec F S512x4096 .bf16 :=
  lookV.read (Elt F) (lookV.writes (Elt F) lookV.junk (lookupRun c i arg1 harg1 arg2 harg2 arg3 harg3 arg4 harg4 xi lo hi).1)

/-- The output block after the body at point `t`. -/
def lookupAt (c : Dev nD) (t : Fin cfg0.N) : Vec F S512x4096 .bf16 :=
  lookupOut c (grid0.coords t) (ms0_0 t) (hs0_0 t) (ms0_1 t) (hs0_1 t) (ms0_2 t) (hs0_2 t) (ms0_3 t) (hs0_3 t)
    (iblk0 V c 0 t) (iblk0 V c 1 t) (iblk0 V c 2 t)

/-! ## The proof data -/

/-- The region's proof data on core `c`: the arrays as the region finds them; after the body each input window at
    its block and the output window at `lookupAt`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lookupAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = lookupAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the three input memrefs hold their blocks, so the run applies; the invariant and the
    core's `owes` pass through unread; the output block's pieces cover it, so what it holds is `lookupAt`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold lookupAt
  unfold lookupOut
  iintro ⟨HΦ, Ho, ⟨%d0, H0⟩, ⟨%d1, H1⟩, ⟨%d2, H2⟩, ⟨%d3, H3⟩⟩
  iapply ((lookupRun c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (lookupCover c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.LinearShared.lean ====
/-
  The K-blocked linear layer's body: what its three kinds of grid point share.

  The second kernel runs on an 8 × 4 × 4 grid (row tile, column tile, K step). Its body keeps a [1024, 1024]
  accumulator in a scratch buffer across the four K steps of one (row tile, column tile): it clears the
  accumulator at K step 0, adds one [1024, 1024] × [1024, 1024]ᵀ product at every step, and at K step 3 adds
  the bias row and stores the output block. In the flat order of the grid the K step is the point's number
  mod 4, so a point is a first step (≡ 0), a last step (≡ 3) or a middle step. The output window is idle — not
  stored into and not written back — at every point but the last steps.
-/
import proofs.«402493_j55972013802094_2_alg».proof.Proof.Gen.KernelIdeal.Launch
import proofs.«402493_j55972013802094_2_alg».proof.Proof.Gen.KernelIdeal.Skeleton
import proofs.«402493_j55972013802094_2_alg».proof.Proof.Gen.KernelIdeal.Loops
import proofs.«402493_j55972013802094_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The body's first branch (`pl.when(program_id(2) == 0)`): the K step is 0. -/
abbrev firstStep (i : grid1.Coords) : Prop :=
  (Scalar.cmpi .ne (Scalar.extui (Scalar.cmpi .eq (BitVec.ofNat 32 (i 2).val) 0#32)) 0#32) = 1#1
/-- It holds at the points ≡ 0 (mod 4). -/
theorem firstStep_iff : ∀ t : Fin cfg1.N, firstStep (grid1.coords t) ↔ t.val % 4 = 0 :=
  (by decide +kernel : ∀ t : Fin grid1.N, firstStep (grid1.coords t) ↔ t.val % 4 = 0)

/-- The body's second branch (`pl.when(program_id(2) == num_programs(2) - 1)`): the K step is 3. -/
abbrev lastStep (i : grid1.Coords) : Prop := k1_cond2 i = 1#1
/-- It holds at the points ≡ 3 (mod 4). -/
theorem lastStep_iff : ∀ t : Fin cfg1.N, lastStep (grid1.coords t) ↔ t.val % 4 = 3 :=
  (by decide +kernel : ∀ t : Fin grid1.N, lastStep (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last steps the output window is idle, -/
theorem idle1_3 : ∀ t : Fin cfg1.N, ¬lastStep (grid1.coords t) → cfg1.idle 3 (grid1.coords t) = true := by decide +kernel
/-- and its block is not written back there; -/
theorem noFlush1_3 : ∀ t : Fin cfg1.N, ¬lastStep (grid1.coords t) → (cfg1.win 3).flush t = false := by decide +kernel
/-- at a last step it is live. -/
theorem live1_3 : ∀ t : Fin cfg1.N, lastStep (grid1.coords t) → cfg1.idle 3 (grid1.coords t) = false := by decide +kernel

/-! ## The memrefs the pipeline calls the body with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0
/-- The accumulator and one output staging buffer as views: contents are stated through them. -/
abbrev accV : View sig .tc .vmem S1024x1024 .f32 := accM.view
abbrev outV : View sig .tc .vmem S1024x1024 .f32 := (Memref.whole cc1_stg3_0 : Memref sig .tc .vmem S1024x1024 .f32).view

/-- The region's class invariant with the accumulator named: the other scoped buffers at anything, the
    accumulator owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) accM fullShare d)) ∗ (∃ r, prngReg c r)) := by
  unfold Pipeline.ΦA; rw [scopedRest1_eq]; simp only [accM, owns_whole]; try rfl

end Cert.KernelIdeal.Hand

end
-- ==== Proof.Ideal.LinearFirst.lean ====
/-
  A first K step of the linear layer's body, run once on whole memrefs: the accumulator is cleared, then the
  step's product is added to it; the output block is not touched.
-/
import proofs.«402493_j55972013802094_2_alg».proof.Proof.Ideal.LinearShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first K step — the activation block at `xa`, the weight block at `wa`, the bias row at `ba`, the output
    block at `d6`, the accumulator at anything — the body runs to the continuation with the four window buffers as
    they were and the accumulator overwritten by the pieces `LS` (the later store first). -/
noncomputable def stepFirst (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : firstStep i) (hc2 : ¬lastStep i)
    (xa wa : Vec F S1024x1024 .bf16) (ba : Vec F S1x1024 .f32) :
    { LS : List (View.Piece (Elt F) S1024x1024 .f32) //
      ∀ (d6 : Vec F S1024x1024 .f32) (E : Set ℕ) (K : PUnit → sProp 𝕄),
        iprop(owns (c : Thread nD τ) arg3 fullShare xa ∗ owns (c : Thread nD τ) arg4 fullShare wa ∗ owns (c : Thread nD τ) arg5 fullShare ba ∗ owns (c : Thread nD τ) arg6 fullShare d6
            ∗ (∃ d, owns (c : Thread nD τ) arg7 fullShare d)
            ∗ (iprop(owns (c : Thread nD τ) arg3 fullShare xa ∗ owns (c : Thread nD τ) arg4 fullShare wa ∗ owns (c : Thread nD τ) arg5 fullShare ba ∗ owns (c : Thread nD τ) arg6 fullShare d6
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun d6 E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%f6, %hf6, H6⟩, ⟨%d7, %f7, -, H7⟩, Hk⟩
    obtain rfl := harg3.eq_unread hf3; obtain rfl := harg4.eq_unread hf4
    obtain rfl := harg5.eq_unread hf5; obtain rfl := harg6.eq_unread hf6
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Hand

end
-- ==== Proof.Ideal.LinearMiddle.lean ====
/-
  A middle K step of the linear layer's body, run once on whole memrefs: the step's product is added to the
  accumulator the step before left; the output block is not touched.
-/
import proofs.«402493_j55972013802094_2_alg».proof.Proof.Ideal.LinearShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle K step — the window buffers as at a first step, the accumulator at `xs` — the body runs to the
    continuation with the four window buffers as they were and the accumulator overwritten by the pieces `LS`. -/
noncomputable def stepMiddle (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : ¬firstStep i) (hc2 : ¬lastStep i)
    (xa wa : Vec F S1024x1024 .bf16) (ba : Vec F S1x1024 .f32) (xs : Vec F S1024x1024 .f32) :
    { LS : List (View.Piece (Elt F) S1024x1024 .f32) //
      ∀ (d6 : Vec F S1024x1024 .f32) (E : Set ℕ) (K : PUnit → sProp 𝕄),
        iprop(owns (c : Thread nD τ) arg3 fullShare xa ∗ owns (c : Thread nD τ) arg4 fullShare wa ∗ owns (c : Thread nD τ) arg5 fullShare ba ∗ owns (c : Thread nD τ) arg6 fullShare d6
            ∗ owns (c : Thread nD τ) arg7 fullShare xs
            ∗ (iprop(owns (c : Thread nD τ) arg3 fullShare xa ∗ owns (c : Thread nD τ) arg4 fullShare wa ∗ owns (c : Thread nD τ) arg5 fullShare ba ∗ owns (c : Thread nD τ) arg6 fullShare d6
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun d6 E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := harg3.eq_unread hf3; obtain rfl := harg4.eq_unread hf4
    obtain rfl := harg5.eq_unread hf5; obtain rfl := harg6.eq_unread hf6; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Hand

end
-- ==== Proof.Ideal.LinearLast.lean ====
/-
  A last K step of the linear layer's body, run once on whole memrefs: the step's product is added to the
  accumulator, then the accumulator plus the bias row is stored as the output block.
-/
import proofs.«402493_j55972013802094_2_alg».proof.Proof.Ideal.LinearShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last K step — the input window buffers at `xa`, `wa`, `ba`, the output block at anything, the accumulator
    at `xs` — the body runs to the continuation with the inputs as they were, the output block overwritten by the
    pieces `L6` and the accumulator by the pieces `LS`. -/
noncomputable def stepLast (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc1 : ¬firstStep i) (hc2 : lastStep i)
    (xa wa : Vec F S1024x1024 .bf16) (ba : Vec F S1x1024 .f32) (xs : Vec F S1024x1024 .f32) :
    Σ' (L6 : List (View.Piece (Elt F) S1024x1024 .f32)), { LS : List (View.Piece (Elt F) S1024x1024 .f32) //
      ∀ (E : Set ℕ) (K : PUnit → sProp 𝕄),
        iprop(owns (c : Thread nD τ) arg3 fullShare xa ∗ owns (c : Thread nD τ) arg4 fullShare wa ∗ owns (c : Thread nD τ) arg5 fullShare ba ∗ (∃ d, owns (c : Thread nD τ) arg6 fullShare d)
            ∗ owns (c : Thread nD τ) arg7 fullShare xs
            ∗ (iprop(owns (c : Thread nD τ) arg3 fullShare xa ∗ owns (c : Thread nD τ) arg4 fullShare wa ∗ owns (c : Thread nD τ) arg5 fullShare ba
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f3, %hf3, H3⟩, ⟨%f4, %hf4, H4⟩, ⟨%f5, %hf5, H5⟩, ⟨%d6, %f6, -, H6⟩, ⟨%f7, %hf7, H7⟩, Hk⟩
    obtain rfl := harg3.eq_unread hf3; obtain rfl := harg4.eq_unread hf4
    obtain rfl := harg5.eq_unread hf5; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.KernelIdeal.Hand

end
-- ==== Proof.Ideal.LinearData.lean ====
/-
  The K-blocked linear layer's region: what the accumulator and the output block hold point by point, the
  invariant that carries the accumulator from one grid point to the next, the proof data and the body obligation,
  at the buffer contents `V` the region is entered with.

  In the flat order of the 8 × 4 × 4 grid, point n is K step n mod 4 of output tile n / 4. The accumulator after
  point n is: at a first step the step's product added to the cleared accumulator; at any other step the step's
  product added to what point n − 1 left. The output block is stored at the last steps only (the accumulator plus
  the bias row) and its window is idle elsewhere.
-/
import proofs.«402493_j55972013802094_2_alg».proof.Proof.Ideal.LinearFirst
import proofs.«402493_j55972013802094_2_alg».proof.Proof.Ideal.LinearMiddle
import proofs.«402493_j55972013802094_2_alg».proof.Proof.Ideal.LinearLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched at the first steps only: between them its block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, per kind of point -/

/-- The accumulator after a first step: the run's two stores (the clear, then the sum) read back. -/
def accFirstAt (c : Dev nD) (t : Fin cfg1.N) (h0 : t.val % 4 = 0) : Vec F S1024x1024 .f32 :=
  accV.read (Elt F) (accV.writes (Elt F) accV.junk (stepFirst c (grid1.coords t) (ms1_0 t) (hs1_0 t) (ms1_1 t) (hs1_1 t) (ms1_2 t) (hs1_2 t) (ms1_3 t) (hs1_3 t) accM (Memref.isWhole_whole _)
    ((firstStep_iff t).mpr h0) (fun h => by have := (lastStep_iff t).mp h; omega) (iblk1 V c 0 t) (iblk1 V c 1 t) (iblk1 V c 2 t)).1)

/-- The accumulator after a middle step, over what the point before left (`xs`). -/
def accMiddleAt (c : Dev nD) (t : Fin cfg1.N) (h0 : ¬t.val % 4 = 0) (h3 : ¬t.val % 4 = 3) (xs : Vec F S1024x1024 .f32) : Vec F S1024x1024 .f32 :=
  accV.read (Elt F) (accV.writes (Elt F) accV.junk (stepMiddle c (grid1.coords t) (ms1_0 t) (hs1_0 t) (ms1_1 t) (hs1_1 t) (ms1_2 t) (hs1_2 t) (ms1_3 t) (hs1_3 t) accM (Memref.isWhole_whole _)
    (fun h => h0 ((firstStep_iff t).mp h)) (fun h => h3 ((lastStep_iff t).mp h)) (iblk1 V c 0 t) (iblk1 V c 1 t) (iblk1 V c 2 t) xs).1)

/-- The accumulator after a last step, over what the point before left. -/
def accLastAt (c : Dev nD) (t : Fin cfg1.N) (h0 : ¬t.val % 4 = 0) (h3 : t.val % 4 = 3) (xs : Vec F S1024x1024 .f32) : Vec F S1024x1024 .f32 :=
  accV.read (Elt F) (accV.writes (Elt F) accV.junk (stepLast c (grid1.coords t) (ms1_0 t) (hs1_0 t) (ms1_1 t) (hs1_1 t) (ms1_2 t) (hs1_2 t) (ms1_3 t) (hs1_3 t) accM (Memref.isWhole_whole _)
    (fun h => h0 ((firstStep_iff t).mp h)) ((lastStep_iff t).mpr h3) (iblk1 V c 0 t) (iblk1 V c 1 t) (iblk1 V c 2 t) xs).2.1)

/-- The output block a last step stores, over what the point before left in the accumulator. -/
def outLastAt (c : Dev nD) (t : Fin cfg1.N) (h0 : ¬t.val % 4 = 0) (h3 : t.val % 4 = 3) (xs : Vec F S1024x1024 .f32) : Vec F S1024x1024 .f32 :=
  outV.read (Elt F) (outV.writes (Elt F) outV.junk (stepLast c (grid1.coords t) (ms1_0 t) (hs1_0 t) (ms1_1 t) (hs1_1 t) (ms1_2 t) (hs1_2 t) (ms1_3 t) (hs1_3 t) accM (Memref.isWhole_whole _)
    (fun h => h0 ((firstStep_iff t).mp h)) ((lastStep_iff t).mpr h3) (iblk1 V c 0 t) (iblk1 V c 1 t) (iblk1 V c 2 t) xs).1)

/-- A first step's two stores into the accumulator cover it (each is the whole buffer). -/
theorem coverFirst (c : Dev nD) (t : Fin cfg1.N) (h0 : t.val % 4 = 0) (y : S1024x1024.Idx) :
    ∃ pc ∈ (stepFirst c (grid1.coords t) (ms1_0 t) (hs1_0 t) (ms1_1 t) (hs1_1 t) (ms1_2 t) (hs1_2 t) (ms1_3 t) (hs1_3 t) accM (Memref.isWhole_whole _)
      ((firstStep_iff t).mpr h0) (fun h => by have := (lastStep_iff t).mp h; omega) (iblk1 V c 0 t) (iblk1 V c 1 t) (iblk1 V c 2 t)).1, y ∈ pc.1.set :=
  View.cover_of_tiledL _ S1024x1024.size (by sl_kernel_rfl) y
theorem coverMiddle (c : Dev nD) (t : Fin cfg1.N) (h0 : ¬t.val % 4 = 0) (h3 : ¬t.val % 4 = 3) (xs : Vec F S1024x1024 .f32) (y : S1024x1024.Idx) :
    ∃ pc ∈ (stepMiddle c (grid1.coords t) (ms1_0 t) (hs1_0 t) (ms1_1 t) (hs1_1 t) (ms1_2 t) (hs1_2 t) (ms1_3 t) (hs1_3 t) accM (Memref.isWhole_whole _)
      (fun h => h0 ((firstStep_iff t).mp h)) (fun h => h3 ((lastStep_iff t).mp h)) (iblk1 V c 0 t) (iblk1 V c 1 t) (iblk1 V c 2 t) xs).1, y ∈ pc.1.set :=
  View.cover_of_tiledL _ S1024x1024.size (by sl_kernel_rfl) y
theorem coverLastAcc (c : Dev nD) (t : Fin cfg1.N) (h0 : ¬t.val % 4 = 0) (h3 : t.val % 4 = 3) (xs : Vec F S1024x1024 .f32) (y : S1024x1024.Idx) :
    ∃ pc ∈ (stepLast c (grid1.coords t) (ms1_0 t) (hs1_0 t) (ms1_1 t) (hs1_1 t) (ms1_2 t) (hs1_2 t) (ms1_3 t) (hs1_3 t) accM (Memref.isWhole_whole _)
      (fun h => h0 ((firstStep_iff t).mp h)) ((lastStep_iff t).mpr h3) (iblk1 V c 0 t) (iblk1 V c 1 t) (iblk1 V c 2 t) xs).2.1, y ∈ pc.1.set :=
  View.cover_of_tiledL _ S1024x1024.size (by sl_kernel_rfl) y
theorem coverLastOut (c : Dev nD) (t : Fin cfg1.N) (h0 : ¬t.val % 4 = 0) (h3 : t.val % 4 = 3) (xs : Vec F S1024x1024 .f32) (y : S1024x1024.Idx) :
    ∃ pc ∈ (stepLast c (grid1.coords t) (ms1_0 t) (hs1_0 t) (ms1_1 t) (hs1_1 t) (ms1_2 t) (hs1_2 t) (ms1_3 t) (hs1_3 t) accM (Memref.isWhole_whole _)
      (fun h => h0 ((firstStep_iff t).mp h)) ((lastStep_iff t).mpr h3) (iblk1 V c 0 t) (iblk1 V c 1 t) (iblk1 V c 2 t) xs).1, y ∈ pc.1.set :=
  View.cover_of_tiledL _ S1024x1024.size (by sl_kernel_rfl) y

/-! ## Point by point -/

/-- THE ACCUMULATION: what the accumulator holds after the body at position `n` of the grid's flat order. -/
def accAt (c : Dev nD) : (n : ℕ) → n < cfg1.N → Vec F S1024x1024 .f32
  | 0, hn => accFirstAt V c ⟨0, hn⟩ (Nat.zero_mod 4)
  | n + 1, hn =>
    if h0 : (n + 1) % 4 = 0 then accFirstAt V c ⟨n + 1, hn⟩ h0
    else if h3 : (n + 1) % 4 = 3 then accLastAt V c ⟨n + 1, hn⟩ h0 h3 (accAt c n (Nat.lt_of_succ_lt hn))
    else accMiddleAt V c ⟨n + 1, hn⟩ h0 h3 (accAt c n (Nat.lt_of_succ_lt hn))

theorem accAt_first (c : Dev nD) (t : Fin cfg1.N) (h0 : t.val % 4 = 0) :
    accAt V c t.val t.isLt = accFirstAt V c t h0 := by
  obtain ⟨n, hn⟩ := t
  cases n with
  | zero => exact rfl
  | succ n => exact (dif_pos h0).trans rfl

theorem accAt_middle (c : Dev nD) (t : Fin cfg1.N) (h0 : ¬t.val % 4 = 0) (h3 : ¬t.val % 4 = 3) :
    accAt V c t.val t.isLt = accMiddleAt V c t h0 h3 (accAt V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h3).trans rfl)

theorem accAt_last (c : Dev nD) (t : Fin cfg1.N) (h0 : ¬t.val % 4 = 0) (h3 : t.val % 4 = 3) :
    accAt V c t.val t.isLt = accLastAt V c t h0 h3 (accAt V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h3).trans rfl)

/-- The output block after the body at point `t`: at a last step what it stores; elsewhere the window is idle and
    this is a placeholder nothing consults. -/
def outAt (c : Dev nD) (t : Fin cfg1.N) : Vec F S1024x1024 .f32 :=
  if h3 : t.val % 4 = 3 then
    outLastAt V c t (by omega) h3 (accAt V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = outLastAt V c t h0 h3 (accAt V c (t.val - 1) (Nat.lt_of_le_of_lt (Nat.sub_le _ _) t.isLt)) := by
  unfold outAt; exact dif_pos h3

/-! ## The invariant that carries the accumulator -/

/-- The region's scoped buffers with the accumulator at `P`: the other pipeline's six staging buffers at anything,
    the accumulator as `P` says, the generator register at some state. -/
def accInv (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

theorem PhiA1_acc (c : Dev nD) : (Pipeline.ΦA spec1 c : sProp 𝕄) = accInv c iprop(∃ d, owns (c : Thread nD τ) accM fullShare d) := by
  unfold accInv; exact PhiA1_eq c

/-- Before position `n`: before the first point the class's invariant (the accumulator at anything); afterwards
    the accumulator at what the point before left. -/
def PhiS (c : Dev nD) : (n : ℕ) → n ≤ cfg1.N → sProp 𝕄
  | 0, _ => Pipeline.ΦA spec1 c
  | n + 1, hn => accInv c (owns (c : Thread nD τ) accM fullShare (accAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = accInv c (owns (c : Thread nD τ) accM fullShare (accAt V c n hn)) := rfl
theorem PhiS_pos (c : Dev nD) (n : ℕ) (h : n ≤ cfg1.N) (hz : n ≠ 0) :
    PhiS V c n h = accInv c (owns (c : Thread nD τ) accM fullShare (accAt V c (n - 1) (by omega))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]

set_option maxHeartbeats 4800000 in
/-- The body at any point. The input memrefs hold their blocks. By the point's number mod 4 it is a first, a last
    or a middle step, and that step's run applies: the invariant hands it the accumulator at what the point before
    left (at anything before the very first point, and at a first step the named contents are simply forgotten) and
    takes it back at this point's contents, the stores covering it; off the last steps the output block goes back as
    it came, at a last step its store covers it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 4 = 0
  · have h3 : ¬t.val % 4 = 3 := by omega
    rw [Dat.leavesExact_idle (dat1 V c) 3 t (idle1_3 t (fun h => h3 ((lastStep_iff t).mp h))) (noFlush1_3 t (fun h => h3 ((lastStep_iff t).mp h)))]
    rw [accAt_first V c t h0]
    unfold accFirstAt
    by_cases hz : t.val = 0
    · rw [PhiS_castSucc V c t, PhiS_zero V c _ _ hz, PhiA1_acc]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepFirst c (grid1.coords t) _ _ _ _ _ _ _ _ _ _ ((firstStep_iff t).mpr h0) (fun h => by have := (lastStep_iff t).mp h; omega) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverFirst V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepFirst c (grid1.coords t) _ _ _ _ _ _ _ _ _ _ ((firstStep_iff t).mpr h0) (fun h => by have := (lastStep_iff t).mp h; omega) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverFirst V c t h0)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [live1_3 t ((lastStep_iff t).mpr h3)], after1_3]
      rw [accAt_last V c t h0 h3, outAt_last V c t h0 h3]
      unfold accLastAt outLastAt
      rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepLast c (grid1.coords t) _ _ _ _ _ _ _ _ _ _ (fun h => h0 ((firstStep_iff t).mp h)) ((lastStep_iff t).mpr h3) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverLastAcc V c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut V c t h0 h3 _)
    · rw [Dat.leavesExact_idle (dat1 V c) 3 t (idle1_3 t (fun h => h3 ((lastStep_iff t).mp h))) (noFlush1_3 t (fun h => h3 ((lastStep_iff t).mp h)))]
      rw [accAt_middle V c t h0 h3]
      unfold accMiddleAt
      rw [PhiS_castSucc V c t, PhiS_pos V c _ _ hz]
      unfold accInv
      iintro ⟨⟨⟨B1, B2, B3, B4, B5, B6, HS⟩, Hg⟩, Ho, ⟨%d0, H0⟩, ⟨%d1, H1⟩, ⟨%d2, H2⟩, ⟨%d3, H3⟩⟩
      iapply ((stepMiddle c (grid1.coords t) _ _ _ _ _ _ _ _ _ _ (fun h => h0 ((firstStep_iff t).mp h)) (fun h => h3 ((lastStep_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 HS Hg]
      · isplitr [Hg]
        · isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS
          ipureintro; exact View.read_writes_of_cover _ _ _ _ _ (coverMiddle V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the accumulator's contents are forgotten. -/
theorem Phi1_last (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_acc]
  unfold accInv
  iintro ⟨⟨B1, B2, B3, B4, B5, B6, HS⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    iexists _; iexact HS
  iexact Hg

end Cert.KernelIdeal.Hand

end
-- ==== Proof.Ideal.Whole.lean ====
/-
  The whole program, launched: both kernel regions and the three stretches of host operations between them run to
  the end, and every buffer the program leaves behind is named.

  @main is five items: host operations that cut the codebook into its two 128-entry halves; the lookup region;
  host operations that gather the bias, flatten the activations to [8192, 4096] and narrow them; the linear-layer
  region; the reshape of its [8192, 4096] result to [4, 2048, 4096]. The buffer contents at the six boundaries are a
  fold from the launch memory: a host stretch applies its operations, a region replaces each of its windows' arrays
  by what its write-backs leave (an input array: itself) and touches nothing else. Each region is entered with all
  unscoped buffers held at the boundary's contents, takes its windows' arrays out of them, runs its pipeline under
  its body obligation, and puts the arrays back. The run's post says every unscoped buffer ends at the last
  boundary's contents; the argument arrays walk back through the fold to the launch memory.
-/
import proofs.«402493_j55972013802094_2_alg».proof.Proof.Ideal.LookupData
import proofs.«402493_j55972013802094_2_alg».proof.Proof.Ideal.LinearData
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev hostOps0_W : List (Ref sig .tc) := [main_v0, main_v1, main_v2, main_v3, main_v4]
abbrev hostOps1_W : List (Ref sig .tc) := [main_c, main_v6, main_v7, main_c_0, main_v8, main_v9, main_v10, main_c_1, main_v11, main_v12, main_v13, main_v14, main_v15, main_v16, main_v17, main_v18, main_v19]
abbrev hostOps2_W : List (Ref sig .tc) := [main_v21]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall, StableHlo.reshape_writes, Finset.singleton_subset_iff, List.mem_toFinset]; exact List.mem_map_of_mem (by decide)

/-! ## The buffer contents at each boundary -/

/-- Core `c`'s buffers at launch. -/
abbrev B0 : Dev nD → Valuation τ sig (Elt F) := fun c b => m (c, b)
/-- After the codebook is cut in halves (the lookup region's entry). -/
abbrev B1 : Dev nD → Valuation τ sig (Elt F) := fun c => StableHlo.after hostOps0 (B0 m c)
abbrev V1 : (c : Dev nD) → (b : Ref sig .tc) → Buf (Elt F) ((c : Thread nD τ).loc b) := fun c b => B1 m c b
/-- At the lookup region's exit: its arrays at what the pipeline leaves, every other buffer as entered. -/
def B2 (c : Dev nD) : Valuation τ sig (Elt F) :=
  Pipeline.withArrays spec0 c (B1 m c) fun w => (dat0 (V1 m) c).arrAt w cfg0.N
theorem B2_arr (c : Dev nD) (w : Fin cfg0.W) :
    B2 m c (Proc.devRef .tc (Pipeline.arrRef spec0 w)) = (dat0 (V1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev V2 : (c : Dev nD) → (b : Ref sig .tc) → Buf (Elt F) ((c : Thread nD τ).loc b) := fun c b => B2 m c b
theorem hF0 (c : Dev nD) (w : Fin cfg0.W) : (dat0 (V1 m) c).arrAt w cfg0.N = V2 m c (Pipeline.arrRef spec0 w) :=
  (B2_arr m c w).symm
theorem hrest0 (c : Dev nD) : ∀ b, b ∉ Finset.univ.image (Pipeline.arrRef spec0) → V2 m c b = V1 m c b :=
  fun b hb => B2_of_ne m c b fun w e => hb (Finset.mem_image.mpr ⟨w, Finset.mem_univ _, e⟩)

/-- After the bias gather and the activations' flattening (the linear-layer region's entry). -/
abbrev B3 : Dev nD → Valuation τ sig (Elt F) := fun c => StableHlo.after hostOps1 (B2 m c)
abbrev V3 : (c : Dev nD) → (b : Ref sig .tc) → Buf (Elt F) ((c : Thread nD τ).loc b) := fun c b => B3 m c b
/-- At the linear-layer region's exit. -/
def B4 (c : Dev nD) : Valuation τ sig (Elt F) :=
  Pipeline.withArrays spec1 c (B3 m c) fun w => (dat1 (V3 m) c).arrAt w cfg1.N
theorem B4_arr (c : Dev nD) (w : Fin cfg1.W) :
    B4 m c (Proc.devRef .tc (Pipeline.arrRef spec1 w)) = (dat1 (V3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev V4 : (c : Dev nD) → (b : Ref sig .tc) → Buf (Elt F) ((c : Thread nD τ).loc b) := fun c b => B4 m c b
theorem hF1 (c : Dev nD) (w : Fin cfg1.W) : (dat1 (V3 m) c).arrAt w cfg1.N = V4 m c (Pipeline.arrRef spec1 w) :=
  (B4_arr m c w).symm
theorem hrest1 (c : Dev nD) : ∀ b, b ∉ Finset.univ.image (Pipeline.arrRef spec1) → V4 m c b = V3 m c b :=
  fun b hb => B4_of_ne m c b fun w e => hb (Finset.mem_image.mpr ⟨w, Finset.mem_univ _, e⟩)

/-- After the result's reshape: the end. -/
abbrev B5 : Dev nD → Valuation τ sig (Elt F) := fun c => StableHlo.after hostOps2 (B4 m c)

/-! ### The argument arrays end as launched -/

/-- `main_arg0` reaches the end as launched: no host operation writes it and no region's output is it. -/
theorem B5_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps2 _ hostOps2_writes (by decide)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl

/-- `main_arg1` reaches the end as launched: no host operation writes it and no region's output is it. -/
theorem B5_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps2 _ hostOps2_writes (by decide)
    _ = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 0).trans (((dat0 (V1 m) c).arrAt_in 0 rfl _).trans (A_eq0 (V1 m) c 0))
    _ = B0 m c (Proc.devRef .tc main_arg1) := StableHlo.after_of_writes_sub hostOps0 _ hostOps0_writes (by decide)
    _ = m ((c : Thread nD τ).loc main_arg1) := rfl

/-- `main_arg2` reaches the end as launched: no host operation writes it and no region's output is it. -/
theorem B5_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps2 _ hostOps2_writes (by decide)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

/-- `main_arg3` reaches the end as launched: no host operation writes it and no region's output is it. -/
theorem B5_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps2 _ hostOps2_writes (by decide)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl

/-- `main_arg4` reaches the end as launched: no host operation writes it and no region's output is it. -/
theorem B5_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps2 _ hostOps2_writes (by decide)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl

/-! ## The proof data family and the thread state -/

/-- No pipeline prefetches a table. -/
abbrev admNone : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admNone p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def reg0 : Pipeline.RegionSeg (pcfgs (F := F)) admNone (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admNone (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admNone (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admNone (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admNone (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admNone (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_all m ρ)

/-- THE RESULT: the run also names what the result buffer ends with. -/
theorem run_result : θ_run defs (onTc (τ := τ) (main (F := F))) ⟨m, fun _ => 0, ρ⟩ (fun r => ∀ c : Dev nD,
      r.2.mem ((c.tc : Thread nD τ).loc main_v21) = B5 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v21 (by decide)),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_all m ρ)

end Cert.KernelIdeal.Hand

end
-- ==== Proof.Ideal.HostValues.lean ====
/-
  What the host operations around the two kernels put in the buffers the kernels read, and what they make of the
  second kernel's result.

  Before the lookup: the [256, 1] codebook is flattened and cut in two rows of 128, so the low row's lane l is codebook
  entry l and the high row's lane l is entry 128 + l. Before the linear layer: the bias vector is gathered from its
  codebook (by the same operations as in the reference program) and laid out as one row; the activations
  [4, 2048, 4096] are flattened to [8192, 4096], row 2048·b + s being (b, s), and narrowed (the identity on extended
  reals). After it: the [8192, 4096] result is unflattened the same way. No host operation writes an argument array
  or the dequantised matrix.
-/
import proofs.«402493_j55972013802094_2_alg».proof.Proof.Ideal.Whole
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## Buffers no item before them writes -/

theorem B1_main_arg1 (c : Dev nD) : B1 m c (Proc.devRef .tc main_arg1) = m ((c : Thread nD τ).loc main_arg1) :=
  StableHlo.after_of_writes_sub hostOps0 _ hostOps0_writes (by decide)
theorem B2_main_arg0 (c : Dev nD) : B2 m c (Proc.devRef .tc main_arg0) = m ((c : Thread nD τ).loc main_arg0) :=
  (B2_of_ne m c main_arg0 (by decide)).trans (StableHlo.after_of_writes_sub hostOps0 _ hostOps0_writes (by decide))
theorem B2_main_arg3 (c : Dev nD) : B2 m c (Proc.devRef .tc main_arg3) = m ((c : Thread nD τ).loc main_arg3) :=
  (B2_of_ne m c main_arg3 (by decide)).trans (StableHlo.after_of_writes_sub hostOps0 _ hostOps0_writes (by decide))
theorem B2_main_arg4 (c : Dev nD) : B2 m c (Proc.devRef .tc main_arg4) = m ((c : Thread nD τ).loc main_arg4) :=
  (B2_of_ne m c main_arg4 (by decide)).trans (StableHlo.after_of_writes_sub hostOps0 _ hostOps0_writes (by decide))
theorem B3_main_v5 (c : Dev nD) : B3 m c (Proc.devRef .tc main_v5) = B2 m c (Proc.devRef .tc main_v5) :=
  StableHlo.after_of_writes_sub hostOps1 _ hostOps1_writes (by decide)

/-! ## The host operations' results, as terms -/

/-- The bias vector as the program gathers it: entry o is the bias codebook's entry at the normalised, clamped
    index word bias_idx[o]. -/
def biasOf (bidx : IVec S4096 32) (btab : FVec F S256x1 .f32) : FVec F S4096 .f32 :=
  Host.gather gather_S256x1_S4096x2_S4096_n_01_n_n_01_1_11 btab
    (concatenate S4096x2 1
      [⟨S4096x1, broadcastInDim S4096x1 ![0] bcast_S4096_S4096x1_0
          (select (cmpi .slt bidx (broadcastInDim S4096 ![] bcast_S_S4096 (constantI S_ 32 0#32)))
            (addi bidx (broadcastInDim S4096 ![] bcast_S_S4096 (constantI S_ 32 256#32))) bidx)⟩,
        ⟨S4096x1, broadcastInDim S4096x1 ![0] bcast_S4096_S4096x1_0 (id (broadcastInDim S4096 ![] bcast_S_S4096 (constantI S_ 32 0#32)))⟩]
      concatenates_S4096x1_S4096x1_S4096x2_d1)

theorem lo_eq (c : Dev nD) :
    (B1 m c (Proc.devRef .tc main_v2) : S1x128.Idx → Elt F .f32)
      = shapeCast S1x128 (extractStridedSlice S128 ![0] (shapeCast S256 (m ((c : Thread nD τ).loc main_arg2)) shapeCasts_S256x1_S256) slices_S256_S128_0) shapeCasts_S128_S1x128 := by
  show StableHlo.after hostOps0 (B0 m c) (Proc.devRef .tc main_v2) = _
  after_results
  rfl

theorem hi_eq (c : Dev nD) :
    (B1 m c (Proc.devRef .tc main_v4) : S1x128.Idx → Elt F .f32)
      = shapeCast S1x128 (extractStridedSlice S128 ![128] (shapeCast S256 (m ((c : Thread nD τ).loc main_arg2)) shapeCasts_S256x1_S256) slices_S256_S128_128) shapeCasts_S128_S1x128 := by
  show StableHlo.after hostOps0 (B0 m c) (Proc.devRef .tc main_v4) = _
  after_results
  rfl

theorem x2d_eq (c : Dev nD) :
    (B3 m c (Proc.devRef .tc main_v19) : S8192x4096.Idx → Elt F .bf16)
      = truncf .bf16 (shapeCast S8192x4096 (B2 m c (Proc.devRef .tc main_arg0) : S4x2048x4096.Idx → Elt F .f32) shapeCasts_S4x2048x4096_S8192x4096) bitsLt_bf16_f32 := by
  show StableHlo.after hostOps1 (B2 m c) (Proc.devRef .tc main_v19) = _
  after_results
  rfl

theorem biasRow_eq (c : Dev nD) :
    (B3 m c (Proc.devRef .tc main_v17) : S1x4096.Idx → Elt F .f32)
      = shapeCast S1x4096 (biasOf (B2 m c (Proc.devRef .tc main_arg3)) (B2 m c (Proc.devRef .tc main_arg4))) shapeCasts_S4096_S1x4096 := by
  show StableHlo.after hostOps1 (B2 m c) (Proc.devRef .tc main_v17) = _
  after_results
  rfl

theorem result_eq (c : Dev nD) :
    (B5 m c (Proc.devRef .tc main_v21) : S4x2048x4096.Idx → Elt F .f32)
      = shapeCast S4x2048x4096 (B4 m c (Proc.devRef .tc main_v20) : S8192x4096.Idx → Elt F .f32) shapeCasts_S8192x4096_S4x2048x4096 := by
  show StableHlo.after hostOps2 (B4 m c) (Proc.devRef .tc main_v21) = _
  after_results
  rfl

/-! ## Read at an index -/

/-- Lane l of the low row is codebook entry l. -/
theorem lo_apply (c : Dev nD) (l : Fin 128) :
    (B1 m c (Proc.devRef .tc main_v2) : S1x128.Idx → Elt F .f32) (ix2 (0 : Fin 1) l)
      = (m ((c : Thread nD τ).loc main_arg2) : S256x1.Idx → Elt F .f32) (ix2 (⟨l.val, by omega⟩ : Fin 256) (0 : Fin 1)) := by
  rw [lo_eq, shapeCast_a_1a_apply,
    extractStridedSlice_apply ![0] _ slices_S256_S128_0 (ix1 l) (ix1 (⟨l.val, by omega⟩ : Fin 256)) (fun a => by
      match a with
      | ⟨0, _⟩ => show l.val = 0 + l.val; omega)]
  exact shapeCast_apply _ shapeCasts_S256x1_S256 _ (ix2 (⟨l.val, by omega⟩ : Fin 256) (0 : Fin 1)) (by
    rw [Shape.rowMajor_val_two, Shape.rowMajor_val_one]
    show l.val * 1 + 0 = l.val; omega)

/-- Lane l of the high row is codebook entry 128 + l. -/
theorem hi_apply (c : Dev nD) (l : Fin 128) :
    (B1 m c (Proc.devRef .tc main_v4) : S1x128.Idx → Elt F .f32) (ix2 (0 : Fin 1) l)
      = (m ((c : Thread nD τ).loc main_arg2) : S256x1.Idx → Elt F .f32) (ix2 (⟨128 + l.val, by omega⟩ : Fin 256) (0 : Fin 1)) := by
  rw [hi_eq, shapeCast_a_1a_apply,
    extractStridedSlice_apply ![128] _ slices_S256_S128_128 (ix1 l) (ix1 (⟨128 + l.val, by omega⟩ : Fin 256)) (fun a => by
      match a with
      | ⟨0, _⟩ => show 128 + l.val = 128 + l.val; rfl)]
  exact shapeCast_apply _ shapeCasts_S256x1_S256 _ (ix2 (⟨128 + l.val, by omega⟩ : Fin 256) (0 : Fin 1)) (by
    rw [Shape.rowMajor_val_two, Shape.rowMajor_val_one]
    show (128 + l.val) * 1 + 0 = 128 + l.val; omega)

/-- Entry 0, N of the bias row is entry N of the bias vector. -/
theorem biasRow_apply (c : Dev nD) (N : Fin 4096) :
    (B3 m c (Proc.devRef .tc main_v17) : S1x4096.Idx → Elt F .f32) (ix2 (0 : Fin 1) N)
      = biasOf (m ((c : Thread nD τ).loc main_arg3)) (m ((c : Thread nD τ).loc main_arg4)) (ix1 N) := by
  rw [biasRow_eq, shapeCast_a_1a_apply, B2_main_arg3, B2_main_arg4]

/-- Entry (b, s, o) of the result is entry (2048·b + s, o) of the linear layer's [8192, 4096] array. -/
theorem result_apply (c : Dev nD) (b : Fin 4) (s : Fin 2048) (o : Fin 4096) :
    (B5 m c (Proc.devRef .tc main_v21) : S4x2048x4096.Idx → Elt F .f32) (ix3 b s o)
      = (B4 m c (Proc.devRef .tc main_v20) : S8192x4096.Idx → Elt F .f32) (ix2 (⟨2048 * b.val + s.val, by omega⟩ : Fin 8192) o) := by
  rw [result_eq]
  exact shapeCast_apply _ shapeCasts_S8192x4096_S4x2048x4096 _ _ (by
    rw [Shape.rowMajor_val_two, Shape.rowMajor_val_three]
    show (2048 * b.val + s.val) * 4096 + o.val = (b.val * 2048 + s.val) * 4096 + o.val; omega)

end Cert.KernelIdeal.Hand

end
-- ==== Proof.Ideal.LookupValue.lean ====
/-
  The codebook lookup's value: what the dequantised matrix holds after the first kernel, index by index.

  One element of a chunk's payload depends on one index word v only. The body masks v to its low seven bits (a lane
  number 0 … 127), reads that lane of the low codebook half and of the high half (the two gathers along the lane
  axis; the half rows are broadcast down the 512 sublanes, so the row does not matter), and keeps the low half's
  entry when v < 128 (signed), the high half's otherwise; the narrowing to bf16 is the identity on extended reals.
  Call that `cell lo hi v`. Chunk k of a block stores `cell` of the block's columns 128·k … 128·k + 127 at those
  columns, so all 32 pieces are blocks of one function of the block index, the pieces tile the block, and the block
  reads back as `cell lo hi` of the index block, entry by entry. The eight row blocks tile the [4096, 4096] array.
-/
import proofs.«402493_j55972013802094_2_alg».proof.Proof.Ideal.LookupData
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## One element of the payload -/

/-- The lane an index word selects: its low seven bits (the body's wrap of a negative lane number never fires,
    a masked word being non-negative, but it is part of the text). -/
def lane (v : BitVec 32) : Fin 128 :=
  ⟨(Scalar.select (IntOp.cmpi .slt (IntOp.andi v 127#32) 0#32) (IntOp.addi (IntOp.andi v 127#32) 128#32) (IntOp.andi v 127#32)).toNat % 128,
    Nat.mod_lt _ (by decide)⟩

/-- The weight an index word selects from the two codebook halves. -/
def cell (lo hi : FVec Ideal S1x128 .f32) (v : BitVec 32) : EReal :=
  Scalar.select (IntOp.cmpi .slt v 128#32) (lo (ix2 (0 : Fin 1) (lane v))) (hi (ix2 (0 : Fin 1) (lane v)))

/-- The body's lane numbers, as the vector it gathers with. -/
abbrev laneVec (ch : Vec Ideal S512x128 .i32) : IVec S512x128 32 :=
  select (cmpi CmpIPredicate.slt (andi ch (broadcast S512x128 127#32)) (broadcast S512x128 0#32))
    (addi (andi ch (broadcast S512x128 127#32)) (broadcast S512x128 128#32))
    (andi ch (broadcast S512x128 127#32))

/-- A gather along the lane axis with those lane numbers reads, at (r, l), row r at the lane the index word there selects. -/
theorem gather_lane (x : S512x128.Idx → EReal) (ch : Vec Ideal S512x128 .i32) (r : Fin 512) (l : Fin 128) :
    dynamicGather 1 x (laneVec ch) (ix2 r l) = x (ix2 r (lane (ch (ix2 r l)))) := by
  unfold dynamicGather
  refine congrArg x (funext fun b => ?_)
  match b with
  | ⟨0, _⟩ => rfl
  | ⟨1, _⟩ => exact Fin.ext rfl

/-- ONE ELEMENT OF A CHUNK'S PAYLOAD is `cell` of the index word at that element. -/
theorem pay_apply (lo hi : FVec Ideal S1x128 .f32) (ch : Vec Ideal S512x128 .i32) (r : Fin 512) (l : Fin 128) :
    k0_pay1 (F := Ideal) lo hi ch (ix2 r l) = cell lo hi (ch (ix2 r l)) := by
  unfold k0_pay1
  simp only [shapeCast_self, shapeCast_shapeCast]
  show Scalar.select (IntOp.cmpi .slt (ch (ix2 r l)) 128#32)
      (dynamicGather 1 (broadcastTo S512x128 lo broadcasts_S1x128_S512x128) (laneVec ch) (ix2 r l))
      (dynamicGather 1 (broadcastTo S512x128 hi broadcasts_S1x128_S512x128) (laneVec ch) (ix2 r l)) = _
  rw [gather_lane, gather_lane, broadcastTo_1b_ab_apply, broadcastTo_1b_ab_apply]
  rfl

/-! ## The 32 pieces are blocks of one function -/

/-- Trip k's one piece: a store at the chunk's columns of the payload of the loads at those columns. -/
theorem trip_piece (𝒱 : Variants) (c : Dev nD) (bd : Option 𝒱.V) (i : grid0.Coords) (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (v0 v4 : Vec F S1x128 .f32) (X : BufTy.Contents (Elt F) arg1.view.ty) (k : Fin k0_t1_loop.trips) :
    tripL_k0_t1 (F := F) 𝒱 c bd i arg1 harg1 arg2 harg2 arg3 harg3 arg4 harg4 v0 v4 X k
      = [⟨Rect.unit (s := S512x4096) (k0_off1 k) S512x128.size (k0_off1_inb k),
          k0_pay1 v0 v4 (View.readAt (Elt F) arg1.view (Rect.unit (s := S512x4096) (k0_off1 k) S512x128.size (k0_off1_inb k)).toLoadRect X)⟩] := by
  unfold tripL_k0_t1 trip_k0_t1
  rfl

/-- If every trip's piece is a block of `G`, so is every piece of the trips before `n`. -/
theorem pb_blocks (𝒱 : Variants) (c : Dev nD) (bd : Option 𝒱.V) (i : grid0.Coords) (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (v0 v4 : Vec F S1x128 .f32) (X : BufTy.Contents (Elt F) arg1.view.ty) (G : S512x4096.Idx → Elt F .bf16)
    (hG : ∀ (k : Fin k0_t1_loop.trips), ∀ p ∈ tripL_k0_t1 (F := F) 𝒱 c bd i arg1 harg1 arg2 harg2 arg3 harg3 arg4 harg4 v0 v4 X k,
      ∀ x : p.1.shape.Idx, p.2 x = G (p.1.emb x)) :
    ∀ n : ℕ, ∀ p ∈ pb_k0_t1 (F := F) 𝒱 c bd i arg1 harg1 arg2 harg2 arg3 harg3 arg4 harg4 v0 v4 X n, ∀ x : p.1.shape.Idx, p.2 x = G (p.1.emb x)
  | 0 => fun p hp => absurd hp List.not_mem_nil
  | n + 1 => fun p hp => by
    rw [pb_k0_t1.eq_2] at hp
    unfold pb_k0_t1Step at hp
    split at hp
    · rename_i hlt
      rcases List.mem_append.mp hp with h | h
      · exact hG ⟨n, hlt⟩ p h
      · exact pb_blocks 𝒱 c bd i arg1 harg1 arg2 harg2 arg3 harg3 arg4 harg4 v0 v4 X G hG n p h
    · exact pb_blocks 𝒱 c bd i arg1 harg1 arg2 harg2 arg3 harg3 arg4 harg4 v0 v4 X G hG n p hp

theorem hz2 : (![0, 0] : Fin 2 → Nat) = fun _ => 0 := funext fun a => by fin_cases a <;> rfl

/-- WHAT THE BODY LEAVES IN THE OUTPUT BLOCK: `cell` of the codebook halves at every index word of the index block. -/
theorem lookupOut_eq (c : Dev nD) (i : grid0.Coords) (arg1 : Memref sig .tc .vmem S512x4096 .i32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S512x4096 .bf16) (harg4 : arg4.IsWhole)
    (xi : Vec Ideal S512x4096 .i32) (lo hi : Vec Ideal S1x128 .f32) :
    lookupOut (F := Ideal) c i arg1 harg1 arg2 harg2 arg3 harg3 arg4 harg4 xi lo hi = fun y => cell lo hi (xi y) := by
  unfold lookupOut
  rw [View.read_writes_eq_canon _ _ _ (lookupCover c i arg1 harg1 arg2 harg2 arg3 harg3 arg4 harg4 xi lo hi)]
  funext y
  refine View.canon_apply_of_pieces (fun y => cell lo hi (xi y)) _ ?_ y (lookupCover c i arg1 harg1 arg2 harg2 arg3 harg3 arg4 harg4 xi lo hi y)
  have hL : (lookupRun (F := Ideal) c i arg1 harg1 arg2 harg2 arg3 harg3 arg4 harg4 xi lo hi).1
      = pb_k0_t1 (F := Ideal) Variants.none c none i arg1 harg1 arg2 harg2 arg3 harg3 arg4 harg4
          (View.readAt (Elt Ideal) arg2.view (Rect.unit (s := S1x128) ![0, 0] S1x128.size inb_S1x128_S1x128_0_0).toLoadRect (harg2.unread lo))
          (View.readAt (Elt Ideal) arg3.view (Rect.unit (s := S1x128) ![0, 0] S1x128.size inb_S1x128_S1x128_0_0).toLoadRect (harg3.unread hi))
          (harg1.unread xi) k0_t1_loop.trips := by
    unfold lookupRun; rfl
  rw [hL]
  refine pb_blocks (F := Ideal) Variants.none c none i arg1 harg1 arg2 harg2 arg3 harg3 arg4 harg4 _ _ _ (fun y => cell lo hi (xi y)) (fun k p hp x => ?_) _
  rw [trip_piece] at hp
  obtain rfl := List.mem_singleton.mp hp
  simp only [View.readAt_eq_ld, harg1.read_unread, harg2.read_unread, harg3.read_unread, View.ld_unit_zero (S := S1x128) hz2]
  obtain ⟨r, l, rfl⟩ : ∃ (r : Fin 512) (l : Fin 128), x = ix2 r l := ⟨x 0, x 1, eq_ix2 x⟩
  exact pay_apply lo hi _ r l

end Cert.KernelIdeal.Hand

end
-- ==== Proof.Ideal.LookupArray.lean ====
/-
  The dequantised matrix after the first kernel: entry (o, i) is the weight the index word idx[o, i] selects from
  the two codebook halves.

  Grid point t writes back rows 512·t … 512·t + 511 of the [4096, 4096] array. Its index window holds the same rows
  of the index matrix, and the two codebook-half windows hold their whole [1, 128] arrays, so what the point writes
  back is the array function's block there. The eight row blocks tile the array, so the array ends holding the
  function everywhere.
-/
import proofs.«402493_j55972013802094_2_alg».proof.Proof.Ideal.LookupValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt Ideal) ((c : Thread nD τ).loc b))

/-- The printed index maps, decided over the grid: the index window and the output window sit on row block t, the
    codebook-half windows on their one block. -/
theorem idx_facts0 : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The dequantised matrix as one function of the index matrix and the two codebook halves. -/
abbrev weightOf (widx : S4096x4096.Idx → Elt Ideal .i32) (lo hi : FVec Ideal S1x128 .f32) : S4096x4096.Idx → Elt Ideal .bf16 :=
  fun j => cell lo hi (widx j)

/-- WHAT POINT t WRITES BACK is row block t of `weightOf` of the arrays as the region finds them. -/
theorem flushed0_eq (c : Dev nD) (t : Fin cfg0.N) :
    (dat0 V c).flushed 3 t = ((cfg0.win 3).blk t).view.read (Elt Ideal) (weightOf (V c main_arg1) (V c main_v2) (V c main_v4)) := by
  show (cfg0.win 3).cut (grid0.coords t) ((dat0 V c).after 3 t) = _
  rw [after0_3]
  unfold lookupAt
  rw [lookupOut_eq]
  obtain ⟨e0, e1, e2, e3, e4, e5, e6, e7⟩ := idx_facts0 t
  have h1 : (iblk0 V c 1 t : FVec Ideal S1x128 .f32) = V c main_v2 := by
    funext y
    show V c main_v2 (((cfg0.win 1).blk t).view.emb y) = V c main_v2 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 128 + 1 * (y 1).val = (y 1).val; omega
  have h2 : (iblk0 V c 2 t : FVec Ideal S1x128 .f32) = V c main_v4 := by
    funext y
    show V c main_v4 (((cfg0.win 2).blk t).view.emb y) = V c main_v4 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [h1, h2]
  funext j
  show cell (V c main_v2) (V c main_v4) (V c main_arg1 (((cfg0.win 0).blk t).view.emb j))
    = cell (V c main_v2) (V c main_v4) (V c main_arg1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * (j 1).val = win0_3.index t (1 : Fin 2) * 4096 + 1 * (j 1).val; omega
  rw [h0]

/-- An index of the array is in point t's block iff each coordinate is in the block's range on its axis. -/
theorem mem_blk0 (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v5).slice (win0_3.rect t)).set ↔ _
  rw [View.set_slice_whole, Rect.mem_set_unit]
  exact Iff.rfl

/-- Row r of the array is in the block of point r / 512. -/
theorem cover0 (i : S4096x4096.Idx) : ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 8 := N_0
  have hlt : (i 0).val / 512 < cfg0.N := by rw [hN]; omega
  refine ⟨⟨(i 0).val / 512, hlt⟩, flush0_3 _, ?_⟩
  rw [mem_blk0]
  obtain ⟨e0, e1, e2, e3, e4, e5, e6, e7⟩ := idx_facts0 ⟨(i 0).val / 512, hlt⟩
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e2]; show (i 0).val / 512 * 512 ≤ (i 0).val ∧ (i 0).val < (i 0).val / 512 * 512 + 512; omega
  | ⟨1, _⟩ =>
    show win0_3.index ⟨(i 0).val / 512, hlt⟩ (1 : Fin 2) * 4096 ≤ (i 1).val ∧ (i 1).val < win0_3.index ⟨(i 0).val / 512, hlt⟩ (1 : Fin 2) * 4096 + 4096
    rw [e3]; omega

/-- THE ARRAY after the region: `weightOf` of the index matrix and the codebook halves as the region found them. -/
theorem weightArr_eq (c : Dev nD) :
    (dat0 V c).arrAt 3 cfg0.N = weightOf (V c main_arg1) (V c main_v2) (V c main_v4) :=
  (dat0 V c).arrAt_eq_of_cover 3 _ (fun t _ => flushed0_eq V c t) cover0

end Cert.KernelIdeal.Hand

end
-- ==== Proof.Ideal.LinearValue.lean ====
/-
  The K-blocked linear layer's value: what the accumulator and the output block hold, entry by entry.

  Each step's run stores into the accumulator the payload `acc + xᵀ-product` of what the accumulator held and the
  step's two input blocks; a first step clears the accumulator before, a last step stores the accumulator plus the
  bias row as the output block. Read at an entry (r, n) on the extended reals, the product term is
  Σ_k x[r, k] · w[n, k] over the step's 1024 features (the matrix unit into a zero accumulator is that sum), the
  clear is 0, and the bias row is broadcast down the rows. So after K step s of output tile q the accumulator's
  entry is the sum over the steps 0 … s of those partial sums, and the output block's entry is the sum over all four
  steps plus the bias entry of its column.
-/
import proofs.«402493_j55972013802094_2_alg».proof.Proof.Ideal.LinearData
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem zeroOff2 : (![0, 0] : Fin 2 → Nat) = fun _ => 0 := funext fun a => by fin_cases a <;> rfl

-- the TensorCore's buffer contents when the region is entered
variable (V : (c : Dev nD) → (b : Ref sig .tc) → Buf (Elt F) ((c : Thread nD τ).loc b))

/-! ## The found pieces are the payloads -/

theorem accFirst_eq (c : Dev nD) (t : Fin cfg1.N) (h0 : t.val % 4 = 0) :
    accFirstAt V c t h0 = k1_pay2 (k1_pay1 (F := F)) (iblk1 V c 0 t) (iblk1 V c 1 t) := by
  unfold accFirstAt
  rw [View.read_writes_eq_canon _ _ _ (coverFirst V c t h0)]
  unfold stepFirst
  dsimp only
  sl_unfold_words
  rw [View.canon_cons_unit_zero (S := S1024x1024) zeroOff2, View.readCov_unit_zero (S := S1024x1024) _ zeroOff2]
  simp only [View.readAt_eq_ld, Memref.IsWhole.read_unread, View.ld_unit_zero (S := S1024x1024) zeroOff2]

theorem accMiddle_eq (c : Dev nD) (t : Fin cfg1.N) (h0 : ¬t.val % 4 = 0) (h3 : ¬t.val % 4 = 3) (xs : Vec F S1024x1024 .f32) :
    accMiddleAt V c t h0 h3 xs = k1_pay2 xs (iblk1 V c 0 t) (iblk1 V c 1 t) := by
  unfold accMiddleAt
  rw [View.read_writes_eq_canon _ _ _ (coverMiddle V c t h0 h3 xs)]
  unfold stepMiddle
  dsimp only
  sl_unfold_words
  rw [View.canon_unit_zero (S := S1024x1024) zeroOff2]
  simp only [View.readAt_eq_ld, Memref.IsWhole.read_unread, View.ld_unit_zero (S := S1024x1024) zeroOff2]
  exact congrArg (fun a => k1_pay2 a (iblk1 V c 0 t) (iblk1 V c 1 t)) ((Memref.isWhole_whole _ : accM.IsWhole).read_unread xs)

theorem accLast_eq (c : Dev nD) (t : Fin cfg1.N) (h0 : ¬t.val % 4 = 0) (h3 : t.val % 4 = 3) (xs : Vec F S1024x1024 .f32) :
    accLastAt V c t h0 h3 xs = k1_pay2 xs (iblk1 V c 0 t) (iblk1 V c 1 t) := by
  unfold accLastAt
  rw [View.read_writes_eq_canon _ _ _ (coverLastAcc V c t h0 h3 xs)]
  unfold stepLast
  dsimp only
  sl_unfold_words
  rw [View.canon_unit_zero (S := S1024x1024) zeroOff2]
  simp only [View.readAt_eq_ld, Memref.IsWhole.read_unread, View.ld_unit_zero (S := S1024x1024) zeroOff2]
  exact congrArg (fun a => k1_pay2 a (iblk1 V c 0 t) (iblk1 V c 1 t)) ((Memref.isWhole_whole _ : accM.IsWhole).read_unread xs)

theorem outLast_eq (c : Dev nD) (t : Fin cfg1.N) (h0 : ¬t.val % 4 = 0) (h3 : t.val % 4 = 3) (xs : Vec F S1024x1024 .f32) :
    outLastAt V c t h0 h3 xs = k1_pay3 (k1_pay2 xs (iblk1 V c 0 t) (iblk1 V c 1 t)) (iblk1 V c 2 t) := by
  unfold outLastAt
  rw [View.read_writes_eq_canon _ _ _ (coverLastOut V c t h0 h3 xs)]
  unfold stepLast
  dsimp only
  sl_unfold_words
  rw [View.canon_unit_zero (S := S1024x1024) zeroOff2, View.readCov_unit_zero (S := S1024x1024) _ zeroOff2]
  simp only [View.readAt_eq_ld, Memref.IsWhole.read_unread, View.ld_unit_zero (S := S1024x1024) zeroOff2,
    View.ld_unit_zero (S := S1x1024) zeroOff2]
  exact congrArg (fun a => k1_pay3 (k1_pay2 a (iblk1 V c 0 t) (iblk1 V c 1 t)) (iblk1 V c 2 t)) ((Memref.isWhole_whole _ : accM.IsWhole).read_unread xs)

/-! ## The payloads at an entry, on the extended reals -/

/-- The cleared accumulator is zero everywhere. -/
theorem pay1_apply (y : S1024x1024.Idx) : k1_pay1 (F := Ideal) y = 0 := by
  unfold k1_pay1
  simp only [shapeCast_self]
  exact Ideal.ofBits_zero_f32

theorem lhs_0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (j : S1024x1024.Idx) (q : dot_S1024x1024_S1024x1024_S1024x1024_1_1_0_0_n_n.contr.Idx) : (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (j : S1024x1024.Idx) (q : dot_S1024x1024_S1024x1024_S1024x1024_1_1_0_0_n_n.contr.Idx) : (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- One step's partial sum at (r, n): the step's 1024 features of activation row r against those of weight row n. -/
def partial1 (xa wa : FVec Ideal S1024x1024 .bf16) (r n : Fin 1024) : EReal := ∑ k : Fin 1024, xa (ix2 r k) * wa (ix2 n k)

/-- The accumulation payload at (r, n): what the accumulator held there plus the step's partial sum. -/
theorem pay2_apply (acc : FVec Ideal S1024x1024 .f32) (xa wa : FVec Ideal S1024x1024 .bf16) (r n : Fin 1024) :
    k1_pay2 (F := Ideal) acc xa wa (ix2 r n) = acc (ix2 r n) + partial1 xa wa r n := by
  unfold k1_pay2 partial1
  simp only [shapeCast_self]
  show acc (ix2 r n) + matmul dot_S1024x1024_S1024x1024_S1024x1024_1_1_0_0_n_n none xa wa (constant S1024x1024 .f32 0x00000000#32) (ix2 r n) = _
  refine congrArg (acc (ix2 r n) + ·) ?_
  show FloatOps.matmul dot_S1024x1024_S1024x1024_S1024x1024_1_1_0_0_n_n none xa wa (constant S1024x1024 .f32 0x00000000#32) (ix2 r n) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r n) ((contrEquiv1 dot_S1024x1024_S1024x1024_S1024x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 r n) ((contrEquiv1 dot_S1024x1024_S1024x1024_S1024x1024_1_1_0_0_n_n 1024 rfl rfl).symm k) = ix2 n k := funext fun a => Fin.ext (by
    match a with
    | ⟨0, _⟩ => exact rhs_0 _ _
    | ⟨1, _⟩ => exact (rhs_1 _ _).trans hk)
  rw [el, er]

/-- The output payload at (r, n): the accumulator's entry plus the bias entry of column n. -/
theorem pay3_apply (a : FVec Ideal S1024x1024 .f32) (b : FVec Ideal S1x1024 .f32) (r n : Fin 1024) :
    k1_pay3 (F := Ideal) a b (ix2 r n) = a (ix2 r n) + b (ix2 (0 : Fin 1) n) := by
  unfold k1_pay3
  simp only [shapeCast_self]
  show a (ix2 r n) + broadcastTo S1024x1024 b broadcasts_S1x1024_S1024x1024 (ix2 r n) = _
  rw [broadcastTo_1b_ab_apply]

end Cert.KernelIdeal.Hand

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  What both programs compute, as one function of the five arguments.

  The weight matrix is stored as indices into a 256-entry codebook: W[o, i] = table[idx[o, i]]. The layer is
  y[b, s, o] = Σ_i x[b, s, i] · W[o, i] + bias[o], where bias[o] is itself a codebook entry, bias_table[bias_idx[o]].
  Both programs fetch the bias by the same host gather, so here it is just a vector.

  The kernel contracts the 4096 input features in four blocks of 1024 (one per K step, added into an accumulator
  that starts at zero), the reference in one sum. Addition of extended reals is commutative and associative, so the
  four partial sums add up to the whole sum whatever the entries are: no finiteness is needed for it.
-/
import Idealize.ShloMosaic.PureOps.Ideal
import Idealize.ShloMosaic.Lib.ValueIdx
import proofs.«402493_j55972013802094_2_alg».proof.Proof.LibSumBlocks

noncomputable section

open scoped BigOperators

namespace Cert.Spec

open Idealize.ShloMosaic Idealize.ShloMosaic.ValueIdx

/-- Activations [4, 2048, 4096]; the index matrix and the weights [4096, 4096]; a codebook [256, 1]; a vector [4096]. -/
abbrev Sx : Shape := ⟨3, ![4, 2048, 4096]⟩
abbrev Sw : Shape := ⟨2, ![4096, 4096]⟩
abbrev St : Shape := ⟨2, ![256, 1]⟩
abbrev Sb : Shape := ⟨1, ![4096]⟩

/-- The codebook entry an index word selects: entry `v` for a word that is a cluster number, `0 ≤ v < 256` (a word
    outside that range selects nothing: the value given there is never used). -/
def entry (tab : FVec Ideal St .f32) (v : BitVec 32) : EReal :=
  if h : v.toNat < 256 then tab (ix2 (⟨v.toNat, h⟩ : Fin 256) (0 : Fin 1)) else 0

theorem entry_of_lt (tab : FVec Ideal St .f32) (v : BitVec 32) (h : v.toNat < 256) :
    entry tab v = tab (ix2 (⟨v.toNat, h⟩ : Fin 256) (0 : Fin 1)) := dif_pos h

/-- The dequantised weight matrix: every index replaced by its codebook entry. -/
def weight (tab : FVec Ideal St .f32) (widx : IVec Sw 32) : FVec Ideal Sw .f32 := fun j => entry tab (widx j)

/-- One output element of the layer. -/
def layerAt (x : FVec Ideal Sx .f32) (W : FVec Ideal Sw .f32) (bias : FVec Ideal Sb .f32)
    (b : Fin 4) (s : Fin 2048) (o : Fin 4096) : EReal :=
  (∑ k : Fin 4096, x (ix3 b s k) * W (ix2 o k)) + bias (ix1 o)

/-- The layer: y[b, s, o] = Σ_k x[b, s, k] · W[o, k] + bias[o]. -/
def layer (x : FVec Ideal Sx .f32) (W : FVec Ideal Sw .f32) (bias : FVec Ideal Sb .f32) : FVec Ideal Sx .f32 :=
  fun j => layerAt x W bias (j 0) (j 1) (j 2)

theorem layer_apply (x : FVec Ideal Sx .f32) (W : FVec Ideal Sw .f32) (bias : FVec Ideal Sb .f32)
    (b : Fin 4) (s : Fin 2048) (o : Fin 4096) : layer x W bias (ix3 b s o) = layerAt x W bias b s o := rfl

/-- THE REGROUPING: the contraction over 4096 features is the sum over the four K steps of the sums over each
    step's 1024 features. -/
theorem sum_steps (f : Fin 4096 → EReal) :
    ∑ s ∈ Finset.range 4, ∑ k : Fin 1024, (if h : s < 4 then f ⟨s * 1024 + k.val, by omega⟩ else 0)
      = ∑ k : Fin 4096, f k := by
  rw [Fin.sum_rowMajor2 4 1024 (fun e : Fin (4 * 1024) => f ⟨e.val, e.isLt⟩)]
  rw [← Fin.sum_univ_eq_sum_range (fun s => ∑ k : Fin 1024, (if h : s < 4 then f ⟨s * 1024 + k.val, by omega⟩ else 0)) 4]
  refine Finset.sum_congr rfl fun a _ => Finset.sum_congr rfl fun k _ => ?_
  rw [dif_pos a.isLt]

end Cert.Spec

end
-- ==== Proof.Ideal.LinearArray.lean ====
/-
  The linear layer's result array after the second kernel: entry (R, N) is Σ_k X[R, k] · W[N, k] + b[N].

  In the grid's flat order point t = 16·i + 4·j + s is K step s of output tile (i, j): its activation block is rows
  1024·i … of X at columns 1024·s …, its weight block rows 1024·j … of W at the same columns, its bias block columns
  1024·j … of the bias row, its output block rows 1024·i …, columns 1024·j … of the result. After step s of a tile the
  accumulator's entry is the sum of the partial sums of steps 0 … s; the last step stores that sum over all four steps
  plus the bias entry. The four partial sums over 1024 features each are the one sum over 4096 features, regrouped.
  The 32 output tiles are written back at the last steps and tile the [8192, 4096] array.
-/
import proofs.«402493_j55972013802094_2_alg».proof.Proof.Ideal.LinearValue
import proofs.«402493_j55972013802094_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered
variable (V : (c : Dev nD) → (b : Ref sig .tc) → Buf (Elt Ideal) ((c : Thread nD τ).loc b))

/-- The printed index maps, decided over the grid's 128 points. -/
theorem idx_facts1 : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-! ## The blocks and arrays by their literal types -/

abbrev xblk (c : Dev nD) (t : Fin cfg1.N) : FVec Ideal S1024x1024 .bf16 := iblk1 V c 0 t
abbrev wblk (c : Dev nD) (t : Fin cfg1.N) : FVec Ideal S1024x1024 .bf16 := iblk1 V c 1 t
abbrev bblk (c : Dev nD) (t : Fin cfg1.N) : FVec Ideal S1x1024 .f32 := iblk1 V c 2 t
abbrev xarr (c : Dev nD) : FVec Ideal S8192x4096 .bf16 := V c main_v19
abbrev warr (c : Dev nD) : FVec Ideal S4096x4096 .bf16 := V c main_v5
abbrev barr (c : Dev nD) : FVec Ideal S1x4096 .f32 := V c main_v17

theorem xblk_apply (c : Dev nD) (t : Fin cfg1.N) (r k : Fin 1024) (R : Fin 8192) (K : Fin 4096)
    (hR : R.val = 1024 * (t.val / 16) + r.val) (hK : K.val = 1024 * (t.val % 4) + k.val) :
    xblk V c t (ix2 r k) = xarr V c (ix2 R K) := by
  obtain ⟨e0, e1, -⟩ := idx_facts1 t
  show V c main_v19 (((cfg1.win 0).blk t).view.emb (ix2 r k)) = V c main_v19 (ix2 R K)
  refine congrArg _ (funext fun a => Fin.ext ?_)
  match a with
  | ⟨0, _⟩ => show win1_0.index t (0 : Fin 2) * 1024 + 1 * r.val = R.val; omega
  | ⟨1, _⟩ => show win1_0.index t (1 : Fin 2) * 1024 + 1 * k.val = K.val; omega

theorem wblk_apply (c : Dev nD) (t : Fin cfg1.N) (n k : Fin 1024) (N : Fin 4096) (K : Fin 4096)
    (hN : N.val = 1024 * (t.val / 4 % 4) + n.val) (hK : K.val = 1024 * (t.val % 4) + k.val) :
    wblk V c t (ix2 n k) = warr V c (ix2 N K) := by
  obtain ⟨-, -, e2, e3, -⟩ := idx_facts1 t
  show V c main_v5 (((cfg1.win 1).blk t).view.emb (ix2 n k)) = V c main_v5 (ix2 N K)
  refine congrArg _ (funext fun a => Fin.ext ?_)
  match a with
  | ⟨0, _⟩ => show win1_1.index t (0 : Fin 2) * 1024 + 1 * n.val = N.val; omega
  | ⟨1, _⟩ => show win1_1.index t (1 : Fin 2) * 1024 + 1 * k.val = K.val; omega

theorem bblk_apply (c : Dev nD) (t : Fin cfg1.N) (n : Fin 1024) (N : Fin 4096)
    (hN : N.val = 1024 * (t.val / 4 % 4) + n.val) :
    bblk V c t (ix2 (0 : Fin 1) n) = barr V c (ix2 (0 : Fin 1) N) := by
  obtain ⟨-, -, -, -, e4, e5, -⟩ := idx_facts1 t
  show V c main_v17 (((cfg1.win 2).blk t).view.emb (ix2 (0 : Fin 1) n)) = V c main_v17 (ix2 (0 : Fin 1) N)
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * n.val = N.val; omega

/-! ## The accumulator after each K step of a tile -/

/-- Point p's partial sum at (r, n) (zero past the grid: never used). -/
def stepSum (c : Dev nD) (p : ℕ) (r n : Fin 1024) : EReal :=
  if hp : p < cfg1.N then partial1 (xblk V c ⟨p, hp⟩) (wblk V c ⟨p, hp⟩) r n else 0

theorem accAt_congr (c : Dev nD) (a b : ℕ) (ha : a < cfg1.N) (hb : b < cfg1.N) (e : a = b) :
    accAt V c a ha = accAt V c b hb := by subst e; rfl

/-- THE FOLD: after K step s of the tile whose first point is 4·q, the accumulator's entry is the sum of the partial
    sums of the steps 0 … s. -/
theorem accAt_sum (c : Dev nD) (q : ℕ) : ∀ (s : ℕ) (_ : s < 4) (h : 4 * q + s < cfg1.N) (r n : Fin 1024),
    accAt V c (4 * q + s) h (ix2 r n) = ∑ u ∈ Finset.range (s + 1), stepSum V c (4 * q + u) r n
  | 0, _, h, r, n => by
    have h0 : (4 * q + 0) % 4 = 0 := by omega
    rw [show accAt V c (4 * q + 0) h = accFirstAt V c ⟨4 * q + 0, h⟩ h0 from accAt_first V c ⟨4 * q + 0, h⟩ h0,
      accFirst_eq, pay2_apply, pay1_apply, zero_add, Finset.sum_range_one]
    unfold stepSum
    rw [dif_pos h]
  | s + 1, hs, h, r, n => by
    have h0 : ¬(4 * q + (s + 1)) % 4 = 0 := by omega
    have hprev : 4 * q + s < cfg1.N := by omega
    have ih := accAt_sum c q s (by omega) hprev r n
    have hstep : accAt V c (4 * q + (s + 1)) h (ix2 r n)
        = accAt V c (4 * q + s) hprev (ix2 r n) + stepSum V c (4 * q + (s + 1)) r n := by
      unfold stepSum
      rw [dif_pos h]
      by_cases h3 : (4 * q + (s + 1)) % 4 = 3
      · rw [show accAt V c (4 * q + (s + 1)) h = _ from accAt_last V c ⟨4 * q + (s + 1), h⟩ h0 h3, accLast_eq, pay2_apply]
        exact congrArg (· (ix2 r n) + _) (accAt_congr V c _ _ _ hprev (by show 4 * q + (s + 1) - 1 = 4 * q + s; omega))
      · rw [show accAt V c (4 * q + (s + 1)) h = _ from accAt_middle V c ⟨4 * q + (s + 1), h⟩ h0 h3, accMiddle_eq, pay2_apply]
        exact congrArg (· (ix2 r n) + _) (accAt_congr V c _ _ _ hprev (by show 4 * q + (s + 1) - 1 = 4 * q + s; omega))
    rw [hstep, ih, Finset.sum_range_succ _ (s + 1)]

/-- THE OUTPUT BLOCK'S ENTRY at a last step: the four partial sums plus the bias entry of the column. -/
theorem outAt_entry (c : Dev nD) (q : ℕ) (h : 4 * q + 3 < cfg1.N) (r n : Fin 1024) :
    outAt V c ⟨4 * q + 3, h⟩ (ix2 r n)
      = (∑ u ∈ Finset.range 4, stepSum V c (4 * q + u) r n) + bblk V c ⟨4 * q + 3, h⟩ (ix2 (0 : Fin 1) n) := by
  have h0 : ¬(4 * q + 3) % 4 = 0 := by omega
  have h3 : (4 * q + 3) % 4 = 3 := by omega
  have hprev : 4 * q + 2 < cfg1.N := by omega
  rw [outAt_last V c ⟨4 * q + 3, h⟩ h0 h3, outLast_eq, pay3_apply, pay2_apply,
    Finset.sum_range_succ _ 3, ← accAt_sum V c q 2 (by omega) hprev r n]
  unfold stepSum
  rw [dif_pos h]
  exact congrArg (· (ix2 r n) + _ + _) (accAt_congr V c _ _ _ hprev (by show 4 * q + 3 - 1 = 4 * q + 2; omega))

/-! ## From blocks to the array -/

/-- One entry of the result. -/
def linAt (X : FVec Ideal S8192x4096 .bf16) (W : FVec Ideal S4096x4096 .bf16) (b : FVec Ideal S1x4096 .f32)
    (R : Fin 8192) (N : Fin 4096) : EReal :=
  (∑ k : Fin 4096, X (ix2 R k) * W (ix2 N k)) + b (ix2 (0 : Fin 1) N)

/-- The result array as one function of the region's three input arrays. -/
def linArr (X : FVec Ideal S8192x4096 .bf16) (W : FVec Ideal S4096x4096 .bf16) (b : FVec Ideal S1x4096 .f32) :
    S8192x4096.Idx → Elt Ideal .f32 := fun j => linAt X W b (j 0) (j 1)

/-- The four partial sums of tile q at (r, n) are the whole contraction of row R against weight row N. -/
theorem steps_eq (c : Dev nD) (q : ℕ) (h : 4 * q + 3 < cfg1.N) (r n : Fin 1024) (R : Fin 8192) (N : Fin 4096)
    (hR : R.val = 1024 * (q / 4) + r.val) (hN : N.val = 1024 * (q % 4) + n.val) :
    ∑ u ∈ Finset.range 4, stepSum V c (4 * q + u) r n = ∑ k : Fin 4096, xarr V c (ix2 R k) * warr V c (ix2 N k) := by
  rw [← Cert.Spec.sum_steps (fun k : Fin 4096 => xarr V c (ix2 R k) * warr V c (ix2 N k))]
  refine Finset.sum_congr rfl fun u hu => ?_
  have hu4 : u < 4 := Finset.mem_range.mp hu
  have hp : 4 * q + u < cfg1.N := by omega
  unfold stepSum partial1
  rw [dif_pos hp]
  refine Finset.sum_congr rfl fun k _ => ?_
  rw [dif_pos hu4]
  have hk : k.val < 1024 := k.isLt
  rw [xblk_apply V c ⟨4 * q + u, hp⟩ r k R ⟨u * 1024 + k.val, by omega⟩ (by show R.val = 1024 * ((4 * q + u) / 16) + r.val; omega)
      (by show u * 1024 + k.val = 1024 * ((4 * q + u) % 4) + k.val; omega),
    wblk_apply V c ⟨4 * q + u, hp⟩ n k N ⟨u * 1024 + k.val, by omega⟩ (by show N.val = 1024 * ((4 * q + u) / 4 % 4) + n.val; omega)
      (by show u * 1024 + k.val = 1024 * ((4 * q + u) % 4) + k.val; omega)]

/-- WHAT A LAST STEP WRITES BACK is its tile of `linArr` of the arrays as the region finds them. -/
theorem flushed1_eq (c : Dev nD) (t : Fin cfg1.N) (hf : (cfg1.win 3).flush t = true) :
    (dat1 V c).flushed 3 t = ((cfg1.win 3).blk t).view.read (Elt Ideal) (linArr (xarr V c) (warr V c) (barr V c)) := by
  have h3 : t.val % 4 = 3 := (flush1_3 t).mp hf
  have hN : cfg1.N = 128 := N_1
  have htN : t.val < 128 := hN ▸ t.isLt
  obtain ⟨q, hq⟩ : ∃ q, t.val = 4 * q + 3 := ⟨t.val / 4, by omega⟩
  have hlt : 4 * q + 3 < cfg1.N := by omega
  obtain rfl : t = ⟨4 * q + 3, hlt⟩ := Fin.ext hq
  obtain ⟨-, -, -, -, -, -, e6, e7⟩ := idx_facts1 ⟨4 * q + 3, hlt⟩
  show (cfg1.win 3).cut (grid1.coords ⟨4 * q + 3, hlt⟩) ((dat1 V c).after 3 ⟨4 * q + 3, hlt⟩) = _
  rw [after1_3]
  funext j
  obtain ⟨r, n, rfl⟩ : ∃ (r n : Fin 1024), j = ix2 r n := ⟨j 0, j 1, eq_ix2 j⟩
  have hr : r.val < 1024 := r.isLt
  have hn : n.val < 1024 := n.isLt
  show outAt V c ⟨4 * q + 3, hlt⟩ (ix2 r n)
    = linArr (xarr V c) (warr V c) (barr V c) (((cfg1.win 3).blk ⟨4 * q + 3, hlt⟩).view.emb (ix2 r n))
  have hemb : ((cfg1.win 3).blk ⟨4 * q + 3, hlt⟩).view.emb (ix2 r n)
      = ix2 (⟨1024 * (q / 4) + r.val, by omega⟩ : Fin 8192) (⟨1024 * (q % 4) + n.val, by omega⟩ : Fin 4096) := by
    funext a; apply Fin.ext
    match a with
    | ⟨0, _⟩ => show win1_3.index ⟨4 * q + 3, hlt⟩ (0 : Fin 2) * 1024 + 1 * r.val = 1024 * (q / 4) + r.val; rw [e6]; show (4 * q + 3) / 16 * 1024 + 1 * r.val = _; omega
    | ⟨1, _⟩ => show win1_3.index ⟨4 * q + 3, hlt⟩ (1 : Fin 2) * 1024 + 1 * n.val = 1024 * (q % 4) + n.val; rw [e7]; show (4 * q + 3) / 4 % 4 * 1024 + 1 * n.val = _; omega
  rw [hemb, outAt_entry V c q hlt r n]
  show _ = linAt (xarr V c) (warr V c) (barr V c) ⟨1024 * (q / 4) + r.val, _⟩ ⟨1024 * (q % 4) + n.val, _⟩
  unfold linAt
  rw [steps_eq V c q hlt r n ⟨1024 * (q / 4) + r.val, by omega⟩ ⟨1024 * (q % 4) + n.val, by omega⟩ rfl rfl,
    bblk_apply V c ⟨4 * q + 3, hlt⟩ n ⟨1024 * (q % 4) + n.val, by omega⟩ (by show 1024 * (q % 4) + n.val = 1024 * ((4 * q + 3) / 4 % 4) + n.val; omega)]

theorem mem_blk1 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v20).slice (win1_3.rect t)).set ↔ _
  rw [View.set_slice_whole, Rect.mem_set_unit]
  exact Iff.rfl

/-- Entry (R, N) is in the tile written back at the last step of output tile (R / 1024, N / 1024). -/
theorem cover1 (i : S8192x4096.Idx) : ∃ t : Fin cfg1.N, (cfg1.win 3).flush t = true ∧ i ∈ ((cfg1.win 3).blk t).view.set := by
  have hi0 : (i 0).val < 8192 := idx2_lt0 i
  have hi1 : (i 1).val < 4096 := idx2_lt1 i
  have hN : cfg1.N = 128 := N_1
  have hlt : 16 * ((i 0).val / 1024) + 4 * ((i 1).val / 1024) + 3 < cfg1.N := by rw [hN]; omega
  refine ⟨⟨16 * ((i 0).val / 1024) + 4 * ((i 1).val / 1024) + 3, hlt⟩, (flush1_3 _).mpr (by show (16 * ((i 0).val / 1024) + 4 * ((i 1).val / 1024) + 3) % 4 = 3; omega), ?_⟩
  rw [mem_blk1]
  obtain ⟨-, -, -, -, -, -, e6, e7⟩ := idx_facts1 ⟨16 * ((i 0).val / 1024) + 4 * ((i 1).val / 1024) + 3, hlt⟩
  intro a
  match a with
  | ⟨0, _⟩ =>
    show win1_3.index ⟨_, hlt⟩ (0 : Fin 2) * 1024 ≤ (i 0).val ∧ (i 0).val < win1_3.index ⟨_, hlt⟩ (0 : Fin 2) * 1024 + 1024
    rw [e6]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win1_3.index ⟨_, hlt⟩ (1 : Fin 2) * 1024 ≤ (i 1).val ∧ (i 1).val < win1_3.index ⟨_, hlt⟩ (1 : Fin 2) * 1024 + 1024
    rw [e7]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAY after the region: `linArr` of the activations, the dequantised weights and the bias row as the region found them. -/
theorem linArr_eq (c : Dev nD) :
    (dat1 V c).arrAt 3 cfg1.N = linArr (xarr V c) (warr V c) (barr V c) :=
  (dat1 V c).arrAt_eq_of_cover 3 _ (fun t hf => flushed1_eq V c t hf) cover1

end Cert.KernelIdeal.Hand

end
-- ==== Proof.Ideal.KernelValue.lean ====
/-
  The kernel program's result is the specification.

  An index word v with 0 ≤ v < 256: its low seven bits are v mod 128, a non-negative word, so the lane it selects is
  v mod 128; it is below 128 (signed) exactly when v < 128. So the kernel's weight is the low row's lane v for
  v < 128 and the high row's lane v − 128 otherwise, and by how the two rows were cut from the codebook that is
  codebook entry v in both cases. The linear layer's array entry (R, N) is then Σ_k X[R, k] · entry(idx[N, k]) +
  bias[N], with X the flattened activations; unflattened, entry (b, s, o) of the result is the layer's.
-/
import proofs.«402493_j55972013802094_2_alg».proof.Proof.Ideal.HostValues
import proofs.«402493_j55972013802094_2_alg».proof.Proof.Ideal.LookupArray
import proofs.«402493_j55972013802094_2_alg».proof.Proof.Ideal.LinearArray
import proofs.«402493_j55972013802094_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## An index word in the codebook's range -/

/-- The low seven bits of a word are its value mod 128. -/
theorem and127_toNat (v : BitVec 32) : (IntOp.andi v 127#32).toNat = v.toNat % 128 := by
  show (v &&& 127#32).toNat = _
  rw [BitVec.toNat_and]
  exact Nat.and_two_pow_sub_one_eq_mod v.toNat 7

/-- A word below 2³¹ read signed is its unsigned value. -/
theorem toInt_of_small (v : BitVec 32) (h : v.toNat < 256) : v.toInt = (v.toNat : Int) := by
  rw [BitVec.toInt_eq_toNat_cond, if_pos (by omega)]

/-- A masked word is not negative. -/
theorem slt_zero_masked (v : BitVec 32) : IntOp.cmpi .slt (IntOp.andi v 127#32) 0#32 = 0#1 := by
  have hlt : (IntOp.andi v 127#32).toNat < 256 := by rw [and127_toNat]; omega
  show BitVec.ofBool ((IntOp.andi v 127#32).slt 0#32) = 0#1
  have : (IntOp.andi v 127#32).slt 0#32 = false := by
    rw [BitVec.slt, toInt_of_small _ hlt]
    simp
  rw [this]; rfl

/-- The lane a word selects is its value mod 128. -/
theorem lane_val (v : BitVec 32) : (lane v).val = v.toNat % 128 := by
  unfold lane
  show (Scalar.select (IntOp.cmpi .slt (IntOp.andi v 127#32) 0#32) (IntOp.addi (IntOp.andi v 127#32) 128#32) (IntOp.andi v 127#32)).toNat % 128 = _
  rw [slt_zero_masked, select_zero, and127_toNat]
  omega

/-- A word in the codebook's range is below 128 read signed exactly when its value is below 128. -/
theorem slt128_of_lt (v : BitVec 32) (h : v.toNat < 256) (h128 : v.toNat < 128) : IntOp.cmpi .slt v 128#32 = 1#1 := by
  show BitVec.ofBool (v.slt 128#32) = 1#1
  have c : (128#32 : BitVec 32).toInt = 128 := by decide
  have : v.slt 128#32 = true := by
    rw [BitVec.slt, toInt_of_small v h, c]
    simp; omega
  rw [this]; rfl
theorem slt128_of_ge (v : BitVec 32) (h : v.toNat < 256) (h128 : ¬v.toNat < 128) : IntOp.cmpi .slt v 128#32 = 0#1 := by
  show BitVec.ofBool (v.slt 128#32) = 0#1
  have c : (128#32 : BitVec 32).toInt = 128 := by decide
  have : v.slt 128#32 = false := by
    rw [BitVec.slt, toInt_of_small v h, c]
    simp; omega
  rw [this]; rfl

/-- THE KERNEL'S WEIGHT IS THE CODEBOOK ENTRY: with the low row's lane l codebook entry l and the high row's lane l
    entry 128 + l, the weight a word in range selects from the two rows is the codebook entry of the word. -/
theorem cell_entry (tab : FVec Ideal S256x1 .f32) (lo hi : FVec Ideal S1x128 .f32)
    (hlo : ∀ l : Fin 128, lo (ix2 (0 : Fin 1) l) = tab (ix2 (⟨l.val, by omega⟩ : Fin 256) (0 : Fin 1)))
    (hhi : ∀ l : Fin 128, hi (ix2 (0 : Fin 1) l) = tab (ix2 (⟨128 + l.val, by omega⟩ : Fin 256) (0 : Fin 1)))
    (v : BitVec 32) (hv : v.toNat < 256) : cell lo hi v = Cert.Spec.entry tab v := by
  rw [Cert.Spec.entry_of_lt tab v hv]
  unfold cell
  rw [hlo, hhi]
  have hl := lane_val v
  by_cases h : v.toNat < 128
  · rw [slt128_of_lt v hv h, select_one]
    exact congrArg (fun i : Fin 256 => tab (ix2 i (0 : Fin 1))) (Fin.ext (by show (lane v).val = v.toNat; omega))
  · rw [slt128_of_ge v hv h, select_zero]
    exact congrArg (fun i : Fin 256 => tab (ix2 i (0 : Fin 1))) (Fin.ext (by show 128 + (lane v).val = v.toNat; omega))

/-! ## The result -/

variable (m : (ℓ : Loc nD τ sig) → Buf (Elt Ideal) ℓ)

/-- Row 2048·b + s of the flattened, narrowed activations is row (b, s) of the activations. -/
theorem x2d_apply (c : Dev nD) (b : Fin 4) (s : Fin 2048) (k : Fin 4096) :
    (B3 m c (Proc.devRef .tc main_v19) : S8192x4096.Idx → Elt Ideal .bf16) (ix2 (⟨2048 * b.val + s.val, by omega⟩ : Fin 8192) k)
      = (m ((c : Thread nD τ).loc main_arg0) : S4x2048x4096.Idx → Elt Ideal .f32) (ix3 b s k) := by
  rw [x2d_eq, B2_main_arg0]
  show shapeCast S8192x4096 (m ((c : Thread nD τ).loc main_arg0) : S4x2048x4096.Idx → Elt Ideal .f32) shapeCasts_S4x2048x4096_S8192x4096 (ix2 (⟨2048 * b.val + s.val, by omega⟩ : Fin 8192) k) = _
  exact shapeCast_apply _ shapeCasts_S4x2048x4096_S8192x4096 _ _ (by
    rw [Shape.rowMajor_val_two, Shape.rowMajor_val_three]
    show (b.val * 2048 + s.val) * 4096 + k.val = (2048 * b.val + s.val) * 4096 + k.val; omega)

/-- The dequantised matrix the linear layer reads is the specification's, under the range fact. -/
theorem warr_apply (c : Dev nD)
    (hr : ∀ j : S4096x4096.Idx, ((m ((c : Thread nD τ).loc main_arg1) : S4096x4096.Idx → BitVec 32) j).toNat < 256)
    (o k : Fin 4096) :
    warr (V3 m) c (ix2 o k)
      = Cert.Spec.weight (m ((c : Thread nD τ).loc main_arg2)) (m ((c : Thread nD τ).loc main_arg1)) (ix2 o k) := by
  have h5 : warr (V3 m) c = weightOf (V1 m c main_arg1) (V1 m c main_v2) (V1 m c main_v4) :=
    (B3_main_v5 m c).trans ((B2_arr m c 3).trans (weightArr_eq (V1 m) c))
  rw [h5]
  show cell (V1 m c main_v2) (V1 m c main_v4) (V1 m c main_arg1 (ix2 o k)) = Cert.Spec.entry _ _
  rw [show V1 m c main_arg1 = m ((c : Thread nD τ).loc main_arg1) from B1_main_arg1 m c]
  exact cell_entry _ _ _ (lo_apply m c) (hi_apply m c) _ (hr (ix2 o k))

/-- THE KERNEL PROGRAM'S RESULT, under the range fact: the layer of the activations, the dequantised weights and
    the gathered bias vector. -/
theorem kernel_value (c : Dev nD)
    (hr : ∀ j : S4096x4096.Idx, ((m ((c : Thread nD τ).loc main_arg1) : S4096x4096.Idx → BitVec 32) j).toNat < 256) :
    (B5 m c (Proc.devRef .tc main_v21) : S4x2048x4096.Idx → Elt Ideal .f32)
      = Cert.Spec.layer (m ((c : Thread nD τ).loc main_arg0))
          (Cert.Spec.weight (m ((c : Thread nD τ).loc main_arg2)) (m ((c : Thread nD τ).loc main_arg1)))
          (biasOf (m ((c : Thread nD τ).loc main_arg3)) (m ((c : Thread nD τ).loc main_arg4))) := by
  funext j
  obtain ⟨b, s, o, rfl⟩ : ∃ (b : Fin 4) (s : Fin 2048) (o : Fin 4096), j = ix3 b s o := ⟨j 0, j 1, j 2, eq_ix3 j⟩
  rw [result_apply, Cert.Spec.layer_apply]
  have h20 : (B4 m c (Proc.devRef .tc main_v20) : S8192x4096.Idx → Elt Ideal .f32)
      = linArr (xarr (V3 m) c) (warr (V3 m) c) (barr (V3 m) c) := (B4_arr m c 3).trans (linArr_eq (V3 m) c)
  rw [h20]
  show linAt (xarr (V3 m) c) (warr (V3 m) c) (barr (V3 m) c) (⟨2048 * b.val + s.val, by omega⟩ : Fin 8192) o = _
  unfold linAt Cert.Spec.layerAt
  rw [show barr (V3 m) c (ix2 (0 : Fin 1) o) = _ from biasRow_apply m c o]
  refine congrArg (· + _) (Finset.sum_congr rfl fun k _ => ?_)
  rw [show xarr (V3 m) c (ix2 (⟨2048 * b.val + s.val, by omega⟩ : Fin 8192) k) = _ from x2d_apply m c b s k,
    warr_apply m c hr o k]

end Cert.KernelIdeal.Hand

end
-- ==== Proof.RefSide.lean ====
/-
  The reference program's value is the specification.

  The reference fetches each weight W[o, i] from a 256-entry codebook by a gather whose start index at (o, i) is the
  pair (n, 0): n is the index word v = idx[o, i] normalised as "v + 256 if v is negative read signed, else v". Under
  the range fact 0 ≤ v < 256 the word is non-negative read signed and unsigned alike, so n = v; the pair (v, 0) lies
  inside the [256, 1] table, so the gather's clamp of each component into its axis changes nothing, and
  W[o, i] = table[v, 0], the codebook entry of v.

  The result is then read element by element: the contraction at (b, s, o) is the sum over k of x[b, s, k] · W[o, k],
  and the two broadcasts of the bias vector put its entry o at (b, s, o).
-/
import proofs.«402493_j55972013802094_2_alg».proof.Proof.Gen.ReferenceIdeal.Read
import proofs.«402493_j55972013802094_2_alg».proof.Proof.Spec

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The start-indices index [o, i, c] of result index (o, i): component c of its start index. -/
abbrev sIdx (y : S4096x4096.Idx) (c : Fin 2) : S4096x4096x2.Idx :=
  fun a => match a with
    | ⟨0, _⟩ => ⟨(y 0).val, (y 0).isLt⟩
    | ⟨1, _⟩ => ⟨(y 1).val, (y 1).isLt⟩
    | ⟨2, _⟩ => ⟨c.val, c.isLt⟩

/-- THE GATHER READ AT (o, i): the table at (row, column), the row the start index's component 0 read signed and
    clamped into [0, 255], the column its component 1 clamped into [0, 0]. Both table axes are collapsed and named by
    the start index map, no axis is a batching one, and the slice is one element. -/
theorem gather_apply {α : Type} {w : Nat} (x : S256x1.Idx → α) (idx : IVec S4096x4096x2 w) (y : S4096x4096.Idx) :
    Host.gather gather_S256x1_S4096x4096x2_S4096x4096_n_01_n_n_01_2_11 x idx y
      = x (ix2 (⟨min (idx (sIdx y 0)).toInt.toNat 255, by omega⟩ : Fin 256)
               (⟨min (idx (sIdx y 1)).toInt.toNat 0, by omega⟩ : Fin 1)) := by
  unfold Host.gather
  congr 1
  funext a
  refine Fin.ext ?_
  match a with
  | ⟨0, _⟩ =>
    show gather_S256x1_S4096x4096x2_S4096x4096_n_01_n_n_01_2_11.start y idx 0
        + gather_S256x1_S4096x4096x2_S4096x4096_n_01_n_n_01_2_11.batchCoord y 0
        + gather_S256x1_S4096x4096x2_S4096x4096_n_01_n_n_01_2_11.offCoord y 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S256x1_S4096x4096x2_S4096x4096_n_01_n_n_01_2_11.startIndexMap by decide)]
    have hsi : gather_S256x1_S4096x4096x2_S4096x4096_n_01_n_n_01_2_11.siIdx y
        ⟨List.idxOf (0 : Fin 2) gather_S256x1_S4096x4096x2_S4096x4096_n_01_n_n_01_2_11.startIndexMap,
          List.idxOf_lt_length_iff.2 (by decide)⟩ = sIdx y 0 := by
      funext b; refine Fin.ext ?_
      match b with
      | ⟨0, _⟩ => rfl
      | ⟨1, _⟩ => rfl
      | ⟨2, _⟩ => rfl
    rw [hsi]
    rfl
  | ⟨1, _⟩ =>
    show gather_S256x1_S4096x4096x2_S4096x4096_n_01_n_n_01_2_11.start y idx 1
        + gather_S256x1_S4096x4096x2_S4096x4096_n_01_n_n_01_2_11.batchCoord y 1
        + gather_S256x1_S4096x4096x2_S4096x4096_n_01_n_n_01_2_11.offCoord y 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S256x1_S4096x4096x2_S4096x4096_n_01_n_n_01_2_11.startIndexMap by decide)]
    have hsi : gather_S256x1_S4096x4096x2_S4096x4096_n_01_n_n_01_2_11.siIdx y
        ⟨List.idxOf (1 : Fin 2) gather_S256x1_S4096x4096x2_S4096x4096_n_01_n_n_01_2_11.startIndexMap,
          List.idxOf_lt_length_iff.2 (by decide)⟩ = sIdx y 1 := by
      funext b; refine Fin.ext ?_
      match b with
      | ⟨0, _⟩ => rfl
      | ⟨1, _⟩ => rfl
      | ⟨2, _⟩ => rfl
    rw [hsi]
    rfl

/-- The [4096, 4096, 1] index (o, i, 0) over result index (o, i). -/
abbrev pIdx (y : S4096x4096.Idx) : S4096x4096x1.Idx :=
  fun a => match a with
    | ⟨0, _⟩ => ⟨(y 0).val, (y 0).isLt⟩
    | ⟨1, _⟩ => ⟨(y 1).val, (y 1).isLt⟩
    | ⟨2, _⟩ => ⟨0, Nat.one_pos⟩

/-- A word below 256 is not negative read signed: the comparison "v < 0, signed" gives the bit 0. -/
theorem slt_zero_of_lt (v : BitVec 32) (h : v.toNat < 256) : IntOp.cmpi .slt v 0#32 = 0#1 := by
  have hi : v.toInt = (v.toNat : Int) := by rw [BitVec.toInt_eq_toNat_cond]; rw [if_pos (by omega)]
  show BitVec.ofBool (v.slt 0#32) = 0#1
  have : v.slt 0#32 = false := by
    rw [BitVec.slt, hi]
    simp
  rw [this]; rfl

/-- A word below 256 read signed and clamped into [0, 255] is itself. -/
theorem clamp_of_lt (v : BitVec 32) (h : v.toNat < 256) : min v.toInt.toNat 255 = v.toNat := by
  have hi : v.toInt = (v.toNat : Int) := by rw [BitVec.toInt_eq_toNat_cond]; rw [if_pos (by omega)]
  rw [hi, Int.toNat_natCast]; omega

/-- Component 0 of the start index at (o, i) is the normalised index word, which under the range fact is the index word itself. -/
theorem start0 (widx : (⟨S4096x4096, .i32⟩ : BufTy).Contents (Elt Ideal)) (y : S4096x4096.Idx) (h : (widx y).toNat < 256) :
    val_main_v9 (F := Ideal) widx (sIdx y 0) = widx y := by
  unfold val_main_v9
  rw [concatenate_pair_apply_left (t := S4096x4096x2) (s₁ := S4096x4096x1) (s₂ := S4096x4096x1) (2 : Fin 3) _ _ _ (sIdx y 0) rfl (pIdx y) (fun b => by
    match b with
    | ⟨0, _⟩ => rfl
    | ⟨1, _⟩ => rfl
    | ⟨2, _⟩ => rfl)]
  rw [val_main_v7_apply, val_main_v4_apply, val_main_v1_apply, val_main_v0_apply, val_main_c_apply]
  have e : idx_main_v7 (pIdx y) = y := by
    funext a; match a with | ⟨0, _⟩ => rfl | ⟨1, _⟩ => rfl
  rw [e, slt_zero_of_lt _ h, ValueIdx.select_zero]

/-- Component 1 of the start index is the constant 0. -/
theorem start1 (widx : (⟨S4096x4096, .i32⟩ : BufTy).Contents (Elt Ideal)) (y : S4096x4096.Idx) :
    val_main_v9 (F := Ideal) widx (sIdx y 1) = 0#32 := by
  unfold val_main_v9
  rw [concatenate_pair_apply_right (t := S4096x4096x2) (s₁ := S4096x4096x1) (s₂ := S4096x4096x1) (2 : Fin 3) _ _ _ (sIdx y 1) rfl rfl (pIdx y) (fun b hb => by
    match b with
    | ⟨0, _⟩ => rfl
    | ⟨1, _⟩ => rfl
    | ⟨2, _⟩ => exact absurd rfl hb) rfl]
  rw [val_main_v8_apply, val_main_v6_apply, val_main_v5_apply, val_main_c_1_apply]

/-- THE WEIGHTS: under the range fact the reference's gathered matrix is the codebook entry of each index word.
    The normalisation leaves a word below 256 alone, the start index (v, 0) is inside the table, so the clamp
    changes nothing. -/
theorem weight_eq (widx : (⟨S4096x4096, .i32⟩ : BufTy).Contents (Elt Ideal)) (tab : (⟨S256x1, .f32⟩ : BufTy).Contents (Elt Ideal))
    (hr : ∀ j : S4096x4096.Idx, (widx j).toNat < 256) :
    Read.val_main_v10 (F := Ideal) widx tab = Cert.Spec.weight tab widx := by
  funext y
  unfold Read.val_main_v10
  rw [gather_apply]
  show _ = Cert.Spec.entry tab (widx y)
  rw [Cert.Spec.entry_of_lt tab (widx y) (hr y)]
  congr 1
  funext a
  refine Fin.ext ?_
  match a with
  | ⟨0, _⟩ =>
    show min (val_main_v9 (F := Ideal) widx (sIdx y 0)).toInt.toNat 255 = (widx y).toNat
    rw [start0 widx y (hr y)]
    exact clamp_of_lt _ (hr y)
  | ⟨1, _⟩ =>
    show min (val_main_v9 (F := Ideal) widx (sIdx y 1)).toInt.toNat 0 = 0
    exact Nat.min_eq_right (Nat.zero_le _)

/-- THE LAYER: the reference's result is the contraction of the activations with the dequantised weights plus the
    bias vector, element by element. The contraction reads the activations at (b, s, k) and the weights at (o, k);
    the two broadcasts put the bias entry o at (b, s, o). -/
theorem result_eq (x : (⟨S4x2048x4096, .f32⟩ : BufTy).Contents (Elt Ideal)) (widx : (⟨S4096x4096, .i32⟩ : BufTy).Contents (Elt Ideal))
    (tab : (⟨S256x1, .f32⟩ : BufTy).Contents (Elt Ideal)) (bidx : (⟨S4096, .i32⟩ : BufTy).Contents (Elt Ideal))
    (btab : (⟨S256x1, .f32⟩ : BufTy).Contents (Elt Ideal))
    (hr : ∀ j : S4096x4096.Idx, (widx j).toNat < 256) :
    Read.val_main_v25 (F := Ideal) x widx tab bidx btab
      = Cert.Spec.layer x (Cert.Spec.weight tab widx) (Read.val_main_v21 (F := Ideal) bidx btab) := by
  funext j
  obtain ⟨b, s, o, rfl⟩ : ∃ (b : Fin 4) (s : Fin 2048) (o : Fin 4096), j = ix3 b s o := ⟨j 0, j 1, j 2, eq_ix3 j⟩
  rw [val_main_v25_apply, val_main_v22_apply, val_main_v24_apply, val_main_v23_apply, weight_eq widx tab hr,
    Cert.Spec.layer_apply]
  unfold Cert.Spec.layerAt
  have hb : idx_main_v23 (idx_main_v24 (ix3 b s o)) = ix1 o := by
    funext a; match a with | ⟨0, _⟩ => rfl
  rw [hb, Idealize.ShloMosaic.Ideal.addf_def]
  refine congrArg (fun t => t + val_main_v21 (F := Ideal) bidx btab (ix1 o)) ?_
  refine Finset.sum_congr rfl fun k _ => ?_
  have hl : lidx_main_v22 (ix3 b s o) k = ix3 b s k := by
    funext a; match a with | ⟨0, _⟩ => rfl | ⟨1, _⟩ => rfl | ⟨2, _⟩ => rfl
  have hw : ridx_main_v22 (ix3 b s o) k = ix2 o k := by
    funext a; match a with | ⟨0, _⟩ => rfl | ⟨1, _⟩ => rfl
  rw [hl, hw]

end Cert.RefSide

end
-- ==== Proof.PreRange.lean ====
/-
  THE PRECONDITION BOUNDS EVERY WEIGHT INDEX.

  The precondition is a conjunction of scalar bits; its last conjunct is the all-reduction by `and`, from the
  initial bit 1, of the [4096, 4096] array of bits whose entry at j is (widx j ≥ 0) ∧ (widx j < 256), both
  comparisons signed. The hypothesis is that the conjunction is 1.

  * A conjunction of two bits is 1 only if each of them is 1, so the last conjunct is 1.
  * An all-reduction by `and` that came out 1 met a 1 at every entry, so the entry at j is 1.
  * That entry is again a conjunction of two bits: the signed comparisons 0 ≤ widx j and widx j < 256 both hold.
  * A 32-bit word whose signed value v satisfies 0 ≤ v has its top bit clear, so its unsigned value is v as
    well; with v < 256 the unsigned value is below 256.
-/
import proofs.«402493_j55972013802094_2_alg».proof.Pre_finite_inputs
import Idealize.ShloMosaic.Lib.ValueIdx
import Idealize.ShloMosaic.Lib.ReduceAll
import Idealize.ShloMosaic.Lib.StableHlo.Predicate

namespace Cert.PreRange

open Idealize.ShloMosaic

/-- The shape of a scalar has exactly one index: two indices of rank 0 are functions out of the empty type. -/
instance : Subsingleton Cert.Pre_finite_inputs.S_.Idx := ⟨fun a b => funext fun d => d.elim0⟩

/-- A 32-bit word that compares, signed, at least 0 and below 256 has an unsigned value below 256:
    a nonnegative signed value means the top bit is clear, and then the signed and unsigned values agree. -/
theorem toNat_lt_of_signed_range {v : BitVec 32} (h0 : IntOp.cmpi .sge v 0#32 = 1#1)
    (h1 : IntOp.cmpi .slt v 256#32 = 1#1) : v.toNat < 256 := by
  rw [IntOp.cmpi_sge] at h0
  rw [IntOp.cmpi_slt] at h1
  have z : (0#32 : BitVec 32).toInt = 0 := by decide
  have c : (256#32 : BitVec 32).toInt = 256 := by decide
  rw [z] at h0
  rw [c] at h1
  have hv := BitVec.toInt_eq_toNat_cond v
  split at hv <;> omega

/-- Under the precondition every weight index, read unsigned, is below 256. -/
theorem widx_range {F : FTy → Type} [FloatOps F] [Cert.Pre_finite_inputs.Facts]
    (x : FVec F Cert.Pre_finite_inputs.S4x2048x4096 .f32) (widx : IVec Cert.Pre_finite_inputs.S4096x4096 32)
    (tab : FVec F Cert.Pre_finite_inputs.S256x1 .f32) (bidx : IVec Cert.Pre_finite_inputs.S4096 32) (btab : FVec F Cert.Pre_finite_inputs.S256x1 .f32)
    (h : Cert.Pre_finite_inputs.fn (F := F) x widx tab bidx btab = fun _ => 1#1) :
    ∀ j : Cert.Pre_finite_inputs.S4096x4096.Idx, (widx j).toNat < 256 := by
  intro j
  -- the conjunction, read at the one scalar index
  have h0 := congrFun h ValueIdx.ix0
  dsimp only [Cert.Pre_finite_inputs.fn, Cert.Pre_finite_inputs.fn_part1] at h0
  -- its last conjunct, the all-reduction, is 1
  have hr := (IntOp.andi_eq_one.1 h0).2
  -- so the reduced array is 1 at j
  have he := Host.reduce_andi_all _ _ _ _ _ hr j
  -- and that entry is the conjunction of the two signed comparisons of widx j
  have hj := IntOp.andi_eq_one.1 he
  exact toNat_lt_of_signed_range hj.1 hj.2

end Cert.PreRange
-- ==== Proof.lean ====
/-
  A quantised linear layer against its reference: the weight matrix is stored as indices into a 256-entry
  codebook, the kernel program dequantises it with one Pallas kernel (the codebook split in two 128-lane rows, a
  lane gather in each, a select on idx < 128) and applies the layer with a second, K-blocked matmul kernel that
  accumulates four partial products in scratch and adds the gathered bias at the last step; the reference gathers
  the weights and the bias from the codebooks and takes one einsum.

  The statement's precondition says every float input is finite and — the evident domain of a codebook index —
  every weight index lies in 0 … 255. Outside that range the two programs differ (the kernel masks an index to seven
  bits and picks a half by its sign, the reference wraps a negative index and clamps), so the range is what makes
  the claim true; the finiteness is not used: the only law joining the two sides is that a sum of extended reals
  may be regrouped.

  Frames. Both printed kernel programs are run whole by hand (the word-level one and its idealization are one
  text, so one proof generic in the float instance serves both): the lookup kernel's body through its 32-chunk loop,
  the matmul kernel's body in its three kinds of grid point with the accumulator carried by the region's invariant,
  the two regions and the three stretches of host operations composed in @main's order. The reference's frame is its
  generated run with the result dropped. The ideal pass rewrote nothing, so the idealization claim is trivial.

  Value. On the extended reals the kernel program's result is, entry by entry, Σ_k x[b, s, k] · table[idx[o, k]] +
  bias[o]: the lookup region leaves the codebook entry of every index (under the range fact), the matmul region's four
  partial sums regroup to the whole contraction, and the host operations only flatten, narrow (the identity) and
  unflatten. The reference's run, read one operation at a time, is the same function; the bias vector is gathered by
  the same operations in both programs.
-/
import proofs.«402493_j55972013802094_2_alg».proof.Defs
import proofs.«402493_j55972013802094_2_alg».proof.Proof.Gen.Kernel
import proofs.«402493_j55972013802094_2_alg».proof.Proof.Gen.KernelIdeal
import proofs.«402493_j55972013802094_2_alg».proof.Proof.Gen.ReferenceIdeal
import proofs.«402493_j55972013802094_2_alg».proof.Proof.Gen.ReferenceIdeal.Run
import proofs.«402493_j55972013802094_2_alg».proof.Proof.Gen.ReferenceIdeal.Read
import proofs.«402493_j55972013802094_2_alg».proof.Proof.Gen.Pre_finite_inputs
import proofs.«402493_j55972013802094_2_alg».proof.Proof.Bits.Whole
import proofs.«402493_j55972013802094_2_alg».proof.Proof.Ideal.KernelValue
import proofs.«402493_j55972013802094_2_alg».proof.Proof.RefSide
import proofs.«402493_j55972013802094_2_alg».proof.Proof.PreRange
import Idealize.ShloMosaic.Adequacy
import Idealize.ShloMosaic.Init

noncomputable section

namespace Cert.Proof

open Idealize.ShloMosaic Idealize.SL.Sem

/-- The word-level kernel program runs to the end, faults nowhere and leaves its arguments alone. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs gather the bias vector by the same operations of the same two arguments. -/
theorem bias_same (bidx : IVec Cert.ReferenceIdeal.S4096 32) (btab : FVec Ideal Cert.ReferenceIdeal.S256x1 .f32) :
    Cert.KernelIdeal.Hand.biasOf (F := Ideal) bidx btab = Cert.ReferenceIdeal.Read.val_main_v21 (F := Ideal) bidx btab := rfl

/-- From memories that agree on the arguments, under the precondition, both idealized programs end with the layer
    of the activations, the dequantised weights and the gathered bias. -/
theorem algebraic : Cert.algebraic_KernelIdeal_ReferenceIdeal := by
  intro m ρ m' ρ' hpre hagree
  have hr : ∀ c : Dev Cert.KernelIdeal.nD, ∀ j : Cert.KernelIdeal.S4096x4096.Idx,
      ((m ((c.tc : Thread Cert.KernelIdeal.nD Cert.KernelIdeal.τ).loc Cert.KernelIdeal.main_arg1) : Cert.KernelIdeal.S4096x4096.Idx → BitVec 32) j).toNat < 256 :=
    fun c => Cert.PreRange.widx_range (F := Ideal) _ _ _ _ _ (hpre c)
  refine ⟨fun c => (Cert.Spec.layer (m ((c.tc : Thread Cert.KernelIdeal.nD Cert.KernelIdeal.τ).loc Cert.KernelIdeal.main_arg0))
      (Cert.Spec.weight (m ((c.tc : Thread Cert.KernelIdeal.nD Cert.KernelIdeal.τ).loc Cert.KernelIdeal.main_arg2)) (m ((c.tc : Thread Cert.KernelIdeal.nD Cert.KernelIdeal.τ).loc Cert.KernelIdeal.main_arg1)))
      (Cert.KernelIdeal.Hand.biasOf (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) : Cert.KernelIdeal.S4x2048x4096.Idx → Elt Ideal .f32), ?_, ?_⟩
  · exact (θ_run Cert.KernelIdeal.defs _ _).mono
      (fun _ h c => ⟨(h c).1.trans (Cert.KernelIdeal.Hand.kernel_value m c (hr c)), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    refine (Cert.ReferenceIdeal.Read.val_main_v25_eq (F := Ideal) _ _ _ _ _).trans ?_
    refine (Cert.RefSide.result_eq _ _ _ _ _ (hr c)).trans ?_
    rw [← bias_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
